-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg13 : FVec F S128x40 .f32) (main_arg14 : FVec F S40 .f32) (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  let main_v54 : FVec F S128x40 .f32 := Host.absf main_arg13
  let main_cst_20 : FVec F S_ .f32 := constant S_ .f32 0x7F800000#32
  let main_v55 : FVec F S128x40 .f32 := broadcastInDim S128x40 ![] bcast_S_S128x40 main_cst_20
  let main_v56 : IVec S128x40 1 := cmpf .olt main_v54 main_v55
  let main_c_21 : IVec S_ 1 := constantI S_ 1 1#1
  let main_v57 : IVec S_ 1 := (fun x v => Host.reduce IntOp.andi x v reducesTo_S128x40_S_d0_1 h_S_) main_v56 main_c_21
  let main_v58 : IVec S_ 1 := andi main_v53 main_v57
  let main_v59 : FVec F S40 .f32 := Host.absf main_arg14
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x40 .f32) (main_arg12 : FVec F S40 .f32) (main_arg13 : FVec F S128x40 .f32) (main_arg14 : FVec F S40 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg11
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg12
  let main_cst_18 : FVec F S_ .f32 := constant S_ .f32 0x7F800000#32
  let main_v50 : FVec F S40 .f32 := broadcastInDim S40 ![] bcast_S_S40 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x40 .f32) (main_arg12 : FVec F S40 .f32) (main_arg13 : FVec F S128x40 .f32) (main_arg14 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x40 .f32) (main_arg12 : FVec F S40 .f32) (main_arg13 : FVec F S128x40 .f32) (main_arg14 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S4000x128 : Shape := ⟨2, ![4000, 128]⟩
abbrev S4000 : Shape := ⟨1, ![4000]⟩
abbrev S4000x1 : Shape := ⟨2, ![4000, 1]⟩
abbrev S1x40 : Shape := ⟨2, ![1, 40]⟩
abbrev S100000x40 : Shape := ⟨2, ![100000, 40]⟩
abbrev S4000x40 : Shape := ⟨2, ![4000, 40]⟩

abbrev nBuf : Space → Nat
  | .hbm => 84
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x40, .f32⟩
  | .hbm, ⟨12, _⟩ => ⟨S40, .f32⟩
  | .hbm, ⟨13, _⟩ => ⟨S128x40, .f32⟩
  | .hbm, ⟨14, _⟩ => ⟨S40, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S1x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S1x40, .f32⟩
  | .hbm, ⟨82, _⟩ => ⟨S1x40, .f32⟩
  | .hbm, ⟨83, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S128x40, .f32⟩
  | .local _ .vmem, ⟨25, _⟩ => ⟨S1x40, .f32⟩
  | .local _ .vmem, ⟨26, _⟩ => ⟨S128x40, .f32⟩
  | .local _ .vmem, ⟨27, _⟩ => ⟨S1x40, .f32⟩
  | .local _ .vmem, ⟨28, _⟩ => ⟨S4000x40, .f32⟩
  | .local _ .vmem, ⟨29, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_c : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_c_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x40 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  inb_S4000x40_S4000x40_0_0 : ∀ a, (![0, 0] : Fin 2 → Nat) a + S4000x40.size a ≤ S4000x40.size a
  h_S4000x40 : 0 < S4000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x40.size a ≤ S128x40.size a
  hwx2_4 : ∀ i : grid2.Coords, EltTy.bits .f32 = 32 ∨ (Rect.block (s := S128x40) S128x40.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x40.size a ≤ S1x40.size a
  hwx2_5 : ∀ i : grid2.Coords, EltTy.bits .f32 = 32 ∨ (Rect.block (s := S1x40) S1x40.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x40.size a ≤ S100000x40.size a
  hwx2_6 : ∀ i : grid2.Coords, EltTy.bits .f32 = 32 ∨ (Rect.block (s := S100000x40) S4000x40.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S1x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S4000x40.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x40, .f32⟩
  | 12 => ⟨S40, .f32⟩
  | 13 => ⟨S128x40, .f32⟩
  | 14 => ⟨S40, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S_, .f32⟩
  | 29 => ⟨S1600000, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S100000x128, .f32⟩
  | 53 => ⟨S_, .f32⟩
  | 54 => ⟨S100000, .f32⟩
  | 55 => ⟨S100000x1, .f32⟩
  | 56 => ⟨S100000x1, .f32⟩
  | 57 => ⟨S_, .f32⟩
  | 58 => ⟨S100000x1, .f32⟩
  | 59 => ⟨S100000x1, .f32⟩
  | 60 => ⟨S100000x128, .f32⟩
  | 61 => ⟨S100000x128, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x128, .f32⟩
  | 71 => ⟨S_, .f32⟩
  | 72 => ⟨S100000x128, .f32⟩
  | 73 => ⟨S1600000x1, .i32⟩
  | 74 => ⟨S100000x128, .f32⟩
  | 75 => ⟨S_, .f32⟩
  | 76 => ⟨S1600000, .f32⟩
  | 77 => ⟨S_, .f32⟩
  | 78 => ⟨S100000, .f32⟩
  | 79 => ⟨S1600000x1, .i32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S_, .f32⟩
  | 101 => ⟨S100000, .f32⟩
  | 102 => ⟨S100000x1, .f32⟩
  | 103 => ⟨S100000x1, .f32⟩
  | 104 => ⟨S_, .f32⟩
  | 105 => ⟨S100000x1, .f32⟩
  | 106 => ⟨S100000x1, .f32⟩
  | 107 => ⟨S100000x128, .f32⟩
  | 108 => ⟨S100000x128, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S_, .f32⟩
  | 123 => ⟨S1600000, .f32⟩
  | 124 => ⟨S_, .f32⟩
  | 125 => ⟨S100000, .f32⟩
  | 126 => ⟨S1600000x1, .i32⟩
  | 127 => ⟨S100000, .f32⟩
  | _ => ⟨S100000x128, .f32⟩

abbrev hbmTy0_1 (i : Nat) : BufTy := match i % 128 with
  | 0 => ⟨S_, .f32⟩
  | 1 => ⟨S100000, .f32⟩
  | 2 => ⟨S100000, .f32⟩
  | 3 => ⟨S100000x1, .f32⟩
  | 4 => ⟨S100000x128, .f32⟩
  | 5 => ⟨S100000x128, .f32⟩
  | 6 => ⟨S100000x40, .f32⟩
  | 7 => ⟨S1x40, .f32⟩
  | 8 => ⟨S100000x40, .f32⟩
  | 9 => ⟨S100000x40, .f32⟩
  | 10 => ⟨S100000x40, .f32⟩
  | 11 => ⟨S100000x40, .f32⟩
  | 12 => ⟨S1x40, .f32⟩
  | 13 => ⟨S100000x40, .f32⟩
  | 14 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call0_cst : Ref sig .tc := ⟨.hbm, 49, rfl⟩
abbrev main_call0_v0 : Ref sig .tc := ⟨.hbm, 50, rfl⟩
abbrev main_v28 : Ref sig .tc := ⟨.hbm, 51, rfl⟩
abbrev main_call1_v0 : Ref sig .tc := ⟨.hbm, 52, rfl⟩
abbrev main_call1_cst : Ref sig .tc := ⟨.hbm, 53, rfl⟩
abbrev main_call1_v1 : Ref sig .tc := ⟨.hbm, 54, rfl⟩
abbrev main_call1_v2 : Ref sig .tc := ⟨.hbm, 55, rfl⟩
abbrev main_v29 : Ref sig .tc := ⟨.hbm, 56, rfl⟩
abbrev main_cst_4 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_5 : Ref sig .tc := ⟨.hbm, 62, rfl⟩
abbrev main_v34 : Ref sig .tc := ⟨.hbm, 63, rfl⟩
abbrev main_v35 : Ref sig .tc := ⟨.hbm, 64, rfl⟩
abbrev main_c_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_7 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_8 : Ref sig .tc := ⟨.hbm, 75, rfl⟩
abbrev main_v44 : Ref sig .tc := ⟨.hbm, 76, rfl⟩
abbrev main_cst_9 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_10 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_call2_cst : Ref sig .tc := ⟨.hbm, 96, rfl⟩
abbrev main_call2_v0 : Ref sig .tc := ⟨.hbm, 97, rfl⟩
abbrev main_v62 : Ref sig .tc := ⟨.hbm, 98, rfl⟩
abbrev main_call3_v0 : Ref sig .tc := ⟨.hbm, 99, rfl⟩
abbrev main_call3_cst : Ref sig .tc := ⟨.hbm, 100, rfl⟩
abbrev main_call3_v1 : Ref sig .tc := ⟨.hbm, 101, rfl⟩
abbrev main_call3_v2 : Ref sig .tc := ⟨.hbm, 102, rfl⟩
abbrev main_v63 : Ref sig .tc := ⟨.hbm, 103, rfl⟩
abbrev main_cst_11 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_c_12 : Ref sig .tc := ⟨.hbm, 109, rfl⟩
abbrev main_v68 : Ref sig .tc := ⟨.hbm, 110, rfl⟩
abbrev main_v69 : Ref sig .tc := ⟨.hbm, 111, rfl⟩
abbrev main_c_13 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_14 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_15 : Ref sig .tc := ⟨.hbm, 122, rfl⟩
abbrev main_v78 : Ref sig .tc := ⟨.hbm, 123, rfl⟩
abbrev main_cst_16 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_17 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Spec.lean ====
/-
  The mathematics of one GraphSAGE layer, index by index, over the extended reals, and the two laws that join the
  kernel's arrangement of it to the reference's.

  A layer takes the node features `h` (N rows of K numbers), the aggregated neighbour features `hn` (same extents),
  two weight matrices `ws`, `wn` (K by D) and two bias rows `bs`, `bn` (D numbers). Its pre-activation at row `r`,
  column `j` is  Σ_k h[r,k]·ws[k,j] + Σ_k hn[r,k]·wn[k,j] + bs[j] + bn[j].  The kernel adds the two products first and
  the biases after (`pre`); the reference adds `bs` between the two products (`preRef`). Addition on the extended
  reals is commutative and associative, so the two agree everywhere, infinities included (`preRef_eq_pre`).

  The first two layers clamp at zero and divide every row by the larger of its Euclidean norm and a fixed positive
  word `eps` (`act`): both programs write this the same way, x / max(√(Σ_k x_k²), eps).

  The neighbour features are a segment sum divided by the clamped in-degree `d = max(deg, 1)`. The reference divides,
  `a / d`; the kernel multiplies by a reciprocal computed once, `a · (1 / d)`. On the extended reals the quotient by a
  NONZERO `d` is by definition `a · d⁻¹`, and `1 / d = 1 · d⁻¹`, so the two agree for every `a`, infinite or not, as soon as
  `d ≠ 0`; and `d = max(deg, 1) ≥ 1 > 0` whatever `deg` is (`div_eq_mul_one_div`, `max_one_ne_zero`).
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- A rank-2 array of extended reals, by its literal extents. -/
abbrev A2 (a b : Nat) : Type := (⟨2, ![a, b]⟩ : Shape).Idx → EReal
/-- A rank-1 array of extended reals. -/
abbrev A1 (a : Nat) : Type := (⟨1, ![a]⟩ : Shape).Idx → EReal

/-- A rank-2 array as a function of its two coordinates. -/
def c2 {a b : Nat} (x : A2 a b) : Fin a → Fin b → EReal := fun r k => x (ix2 r k)
/-- A function of two coordinates as a rank-2 array. -/
def u2 {a b : Nat} (f : Fin a → Fin b → EReal) : A2 a b := fun i => f (i 0) (i 1)

theorem u2_ix2 {a b : Nat} (f : Fin a → Fin b → EReal) (r : Fin a) (k : Fin b) : u2 f (ix2 r k) = f r k := rfl
theorem c2_u2 {a b : Nat} (f : Fin a → Fin b → EReal) : c2 (u2 f) = f := rfl
theorem u2_c2 {a b : Nat} (x : A2 a b) : u2 (c2 x) = x := by
  funext i; unfold u2 c2; exact congrArg x (eq_ix2 i).symm

variable {N K D : Nat}

/-- The pre-activation in the kernel's order: both products, then the two biases. -/
def pre (h hn : Fin N → Fin K → EReal) (ws wn : Fin K → Fin D → EReal) (bs bn : Fin D → EReal)
    (r : Fin N) (j : Fin D) : EReal :=
  (∑ k : Fin K, h r k * ws k j) + (∑ k : Fin K, hn r k * wn k j) + bs j + bn j

/-- The pre-activation in the reference's order: the first bias between the two products. -/
def preRef (h hn : Fin N → Fin K → EReal) (ws wn : Fin K → Fin D → EReal) (bs bn : Fin D → EReal)
    (r : Fin N) (j : Fin D) : EReal :=
  (∑ k : Fin K, h r k * ws k j) + bs j + (∑ k : Fin K, hn r k * wn k j) + bn j

/-- Addition on the extended reals is commutative and associative: the two orders are one number. -/
theorem preRef_eq_pre (h hn : Fin N → Fin K → EReal) (ws wn : Fin K → Fin D → EReal) (bs bn : Fin D → EReal) :
    preRef h hn ws wn bs bn = pre h hn ws wn bs bn := by
  funext r j
  unfold preRef pre
  rw [add_right_comm (∑ k : Fin K, h r k * ws k j) (bs j)]

/-- Clamp at zero, then divide the row by the larger of its Euclidean norm and `eps`. -/
def act (eps : EReal) (x : Fin N → Fin D → EReal) (r : Fin N) (j : Fin D) : EReal :=
  Ideal.div (max (x r j) 0) (max (Ideal.sqrt (∑ k : Fin D, max (x r k) 0 * max (x r k) 0)) eps)

/-- The fixed positive word the row norm is clamped at (the float nearest 1e-12): the same word in both programs,
    never evaluated. -/
abbrev epsW : EReal := Ideal.ofBits .f32 0x2B8CBCCC#32

/-- A bias vector as a function of its coordinate. -/
def row {D : Nat} (b : A1 D) : Fin D → EReal := fun j => b (ix1 j)
/-- A bias held as a one-row matrix, as a function of its column. -/
def row2 {D : Nat} (b : A2 1 D) : Fin D → EReal := fun j => b (ix2 (0 : Fin 1) j)

/-- A normalised layer as an array: clamp and row-normalise the kernel-order pre-activation. -/
def layerA (h hn : A2 N K) (ws wn : A2 K D) (bs bn : Fin D → EReal) : A2 N D :=
  u2 (act epsW (pre (c2 h) (c2 hn) (c2 ws) (c2 wn) bs bn))
/-- The last, linear layer as an array: the kernel-order pre-activation itself. -/
def layerL (h hn : A2 N K) (ws wn : A2 K D) (bs bn : Fin D → EReal) : A2 N D :=
  u2 (pre (c2 h) (c2 hn) (c2 ws) (c2 wn) bs bn)
/-- The same two layers with the reference's order of the four summands. -/
def layerARef (h hn : A2 N K) (ws wn : A2 K D) (bs bn : Fin D → EReal) : A2 N D :=
  u2 (act epsW (preRef (c2 h) (c2 hn) (c2 ws) (c2 wn) bs bn))
def layerLRef (h hn : A2 N K) (ws wn : A2 K D) (bs bn : Fin D → EReal) : A2 N D :=
  u2 (preRef (c2 h) (c2 hn) (c2 ws) (c2 wn) bs bn)

theorem layerARef_eq (h hn : A2 N K) (ws wn : A2 K D) (bs bn : Fin D → EReal) :
    layerARef h hn ws wn bs bn = layerA h hn ws wn bs bn := by
  unfold layerARef layerA; rw [preRef_eq_pre]
theorem layerLRef_eq (h hn : A2 N K) (ws wn : A2 K D) (bs bn : Fin D → EReal) :
    layerLRef h hn ws wn bs bn = layerL h hn ws wn bs bn := by
  unfold layerLRef layerL; rw [preRef_eq_pre]

/-- The quotient by a nonzero extended real is the product with its reciprocal, for every dividend. -/
theorem div_eq_mul_one_div (a d : EReal) (hd : d ≠ 0) : Ideal.div a d = a * Ideal.div 1 d := by
  unfold Ideal.div
  rw [if_neg hd, if_neg hd, one_mul]

/-- A number clamped below by a positive one is not zero. -/
theorem max_pos_ne_zero (x p : EReal) (hp : 0 < p) : max x p ≠ 0 :=
  ne_of_gt (lt_of_lt_of_le hp (le_max_right x p))

/-- The word of the float one is positive. -/
theorem one_word_pos : (0 : EReal) < Ideal.ofBits .f32 0x3F800000#32 := by
  simp [Ideal.ofBits, Ideal.ieee]
  rw [← EReal.coe_mul, EReal.coe_pos]
  norm_num

end Cert.Sage

end
-- ==== Proof.ChainK.lean ====
/-
  The kernel program's value as ONE function of its fifteen arguments: three layers (Spec), each fed the previous
  layer's rows and their neighbour mean. The neighbour mean is the host's own chain — negative source indices wrapped,
  rows gathered by source, summed by destination, and the sum MULTIPLIED by the reciprocal of the clamped in-degree,
  `1 / max(deg, 1)`, which the program computes once from the destinations and reuses in every layer.
-/
import proofs.«149585_j68143951118848_1_alg».proof.Proof.Gen.KernelIdeal
import proofs.«149585_j68143951118848_1_alg».proof.Proof.Spec

noncomputable section

namespace Cert.KernelIdeal.Chain

open Idealize.ShloMosaic Cert.KernelIdeal Cert.KernelIdeal.Gen Cert.Sage

abbrev FArr (s : Shape) : Type := FVec Ideal s .f32
abbrev IArr (s : Shape) : Type := IVec s 32

/-- An array of ones over the nodes. -/
def ones : FArr S100000 := broadcastInDim S100000 ![] bcast_S_S100000 (constant (F := Ideal) S_ .f32 0x3F800000#32)

/-- The in-degree of every node: ones summed by destination. -/
def deg (dst : IArr S1600000) : FArr S100000 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The in-degree clamped below by one. -/
def degc (dst : IArr S1600000) : FArr S100000 := maximumf (F := Ideal) (deg dst) ones

/-- The reciprocal of the clamped in-degree. -/
def degInv (dst : IArr S1600000) : FArr S100000 := Host.divf (F := Ideal) ones (degc dst)

/-- The source indices, negative ones wrapped by the node count, as a column. -/
def srcCol (src : IArr S1600000) : IArr S1600000x1 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The rows of `h` gathered by source and summed by destination. -/
def agg (h : FArr S100000x128) (src dst : IArr S1600000) : FArr S100000x128 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h (srcCol src))

/-- A per-node number repeated along the node's row. -/
def bc (v : FArr S100000) : FArr S100000x128 :=
  broadcastInDim S100000x128 ![0, 1] bcast_S100000x1_S100000x128_0_1 (broadcastInDim S100000x1 ![0] bcast_S100000_S100000x1_0 v)

/-- The neighbour mean, as the kernel program forms it: the sum times the reciprocal of the clamped in-degree. -/
def hn (h : FArr S100000x128) (src dst : IArr S1600000) : FArr S100000x128 :=
  mulf (F := Ideal) (agg h src dst) (bc (degInv dst))

variable (x0 : FArr S100000x128) (x1 x2 : IArr S1600000) (x3 : FArr S128x128) (x4 : FArr S128) (x5 : FArr S128x128) (x6 : FArr S128)
  (x7 : FArr S128x128) (x8 : FArr S128) (x9 : FArr S128x128) (x10 : FArr S128) (x11 : FArr S128x40) (x12 : FArr S40)
  (x13 : FArr S128x40) (x14 : FArr S40)

/-- The first layer's rows. -/
def h1 : FArr S100000x128 := layerA (N := 100000) (K := 128) (D := 128) x0 (hn x0 x1 x2) x3 x5 (row x4) (row x6)
/-- The second layer's rows. -/
def h2 : FArr S100000x128 :=
  layerA (N := 100000) (K := 128) (D := 128) (h1 x0 x1 x2 x3 x4 x5 x6) (hn (h1 x0 x1 x2 x3 x4 x5 x6) x1 x2) x7 x9 (row x8) (row x10)
/-- The program's result: the third, linear layer. -/
def out : FArr S100000x40 :=
  layerL (N := 100000) (K := 128) (D := 40) (h2 x0 x1 x2 x3 x4 x5 x6 x7 x8 x9 x10)
    (hn (h2 x0 x1 x2 x3 x4 x5 x6 x7 x8 x9 x10) x1 x2) x11 x13 (row x12) (row x14)

end Cert.KernelIdeal.Chain

end
-- ==== Proof.LibKeepdims.lean ====
/-
  Column forms of the layout operations a `keepdims` reduction leaves behind, read at an index: a vector turned into a
  one-column matrix, and a one-column matrix broadcast along its rows. General in the extents and in the element type.
-/
import Idealize.ShloMosaic.Lib.ValueIdx
import Idealize.ShloMosaic.Lib.Pipeline.Value

namespace Cert.Lib.Keepdims

open Idealize.ShloMosaic Idealize.ShloMosaic.ValueIdx

variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Region0Pay.lean ====
/-
  The dense kernel's stored value read at one index. Over the extended reals the body's arithmetic at row p, column q
  is: the two matrix products' sums over the 128 shared coordinates, added, then the two bias rows, clamped below at
  zero, and divided by the larger of the row's Euclidean norm and the fixed positive word. Narrowing to bf16 is the
  identity on extended reals, the casts to the same shape are the identity, and every broadcast reads one entry.
-/
import proofs.«149585_j68143951118848_1_alg».proof.Proof.Gen.KernelIdeal.Skeleton
import proofs.«149585_j68143951118848_1_alg».proof.Proof.Spec
import proofs.«149585_j68143951118848_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Idealize.ShloMosaic Idealize.ShloMosaic.ValueIdx
open Cert.KernelIdeal Cert.KernelIdeal.Gen Cert.Sage Cert.Lib.Keepdims

/-! ## The matrix product at an index -/

/-- The left operand's row coordinate is the output's row. -/
theorem lhs_axis0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column coordinate is the contracted coordinate. -/
theorem lhs_axis1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row coordinate is the contracted coordinate. -/
theorem rhs_axis0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column coordinate is the output's column. -/
theorem rhs_axis1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A [4000,128] by [128,128] product into the zero accumulator, at (p, q): the sum over k of a[p,k] · b[k,q]. -/
theorem matmul_at (a : FVec Ideal S4000x128 .bf16) (b : FVec Ideal S128x128 .bf16) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The row sum at an index -/

/-- The sum over the columns of a [4000,128] array, at row p. -/
theorem rowsum_at (v : FVec Ideal S4000x128 .f32) (h : S4000x128.Reduces [1] S4000) (hφ : FKind.Formats .f32)
    (hacc : (0x00000000#32 : BitVec 32) = 0x00000000#32) (p : Fin 4000) :
    multiReduction (F := Ideal) .add [1] S4000 v 0x00000000#32 h hφ hacc (ix1 p) = ∑ k : Fin 128, v (ix2 p k) := by
  refine (Ideal.multiReduction_add_single v 0x00000000#32 h hφ hacc (ix1 p)).trans ?_
  refine Finset.sum_congr rfl fun k _ => congrArg v ?_
  funext a; apply Fin.ext
  match a with
  | ⟨0, _⟩ => rfl
  | ⟨1, _⟩ => rfl

/-! ## The clamp and the row normalisation at an index -/

/-- Clamped at zero and divided by the larger of the row's Euclidean norm and the fixed word, at (p, q): the row's sum of
    squares is read through the one-column cast and the broadcast along the row. -/
theorem norm_at (v : FVec Ideal S4000x128 .f32) (hred : S4000x128.Reduces [1] S4000) (hφ : FKind.Formats .f32)
    (hacc : (0x00000000#32 : BitVec 32) = 0x00000000#32) (hsc : S4000.ShapeCasts S4000x1)
    (hbc : S4000x1.Broadcasts S4000x128) (p : Fin 4000) (q : Fin 128) :
    divf (maximumf v (broadcast S4000x128 (Scalar.ofBits (F := Ideal) .f32 0x00000000#32)))
      (broadcastTo S4000x128
        (maximumf
          (sqrt (shapeCast S4000x1
            (multiReduction (F := Ideal) .add [1] S4000
              (mulf (maximumf v (broadcast S4000x128 (Scalar.ofBits (F := Ideal) .f32 0x00000000#32)))
                (maximumf v (broadcast S4000x128 (Scalar.ofBits (F := Ideal) .f32 0x00000000#32))))
              0x00000000#32 hred hφ hacc) hsc))
          (broadcast S4000x1 (Scalar.ofBits (F := Ideal) .f32 0x2B8CBCCC#32))) hbc) (ix2 p q)
      = act epsW (fun r j => v (ix2 r j)) p q := by
  unfold act
  rw [divf_apply]
  refine congrArg₂ Ideal.div ?_ ?_
  · show max (v (ix2 p q)) (Ideal.ofBits .f32 0x00000000#32) = _
    rw [Ideal.ofBits_zero_f32]
  · refine (broadcastTo_a1_ab_apply _ hbc p q).trans ?_
    show max (Ideal.sqrt (shapeCast S4000x1 _ hsc (ix2 p (0 : Fin 1)))) (Ideal.ofBits .f32 0x2B8CBCCC#32) = _
    refine congrArg (fun s => max (Ideal.sqrt s) epsW) ?_
    refine (shapeCast_a_a1_apply _ hsc p 0).trans ?_
    refine (rowsum_at _ hred hφ hacc p).trans ?_
    refine Finset.sum_congr rfl fun k _ => ?_
    show max (v (ix2 p k)) (Ideal.ofBits .f32 0x00000000#32) * max (v (ix2 p k)) (Ideal.ofBits .f32 0x00000000#32) = _
    rw [Ideal.ofBits_zero_f32]

/-! ## The pre-activation at an index -/

/-- Both products' sums, then the two bias rows, at (p, j). -/
theorem preblk_at (x0 x1 : Vec Ideal S4000x128 .f32) (x2 x4 : Vec Ideal S128x128 .f32) (x3 x5 : Vec Ideal S1x128 .f32)
    (hb : FTy.bits .bf16 < FTy.bits .f32) (hc : S4000x128.ShapeCasts S4000x128) (hr : S1x128.ShapeCasts S1x128)
    (hbr : S1x128.Broadcasts S4000x128) (p : Fin 4000) (j : Fin 128) :
    addf (addf (addf
        (matmul dot_S4000x128_S128x128_S4000x128_1_0_0_1_n_n none (truncf .bf16 x0 hb) (truncf .bf16 x2 hb)
          (constant (F := Ideal) S4000x128 .f32 0x00000000#32))
        (matmul dot_S4000x128_S128x128_S4000x128_1_0_0_1_n_n none (truncf .bf16 (shapeCast S4000x128 x1 hc) hb) (truncf .bf16 x4 hb)
          (constant (F := Ideal) S4000x128 .f32 0x00000000#32)))
        (broadcastTo S4000x128 (shapeCast S1x128 x3 hr) hbr))
        (broadcastTo S4000x128 (shapeCast S1x128 x5 hr) hbr) (ix2 p j)
      = pre (c2 x0) (c2 x1) (c2 x2) (c2 x4) (row2 x3) (row2 x5) p j := by
  simp only [shapeCast_self]
  rw [addf_apply, addf_apply, addf_apply, matmul_at, matmul_at, broadcastTo_1b_ab_apply, broadcastTo_1b_ab_apply]
  rfl

/-! ## The stored value at an index -/

/-- What the body stores, at row p and column q of its block, is the layer of Spec on the loaded blocks. -/
theorem pay_at (x0 x1 : Vec Ideal S4000x128 .f32) (x2 x4 : Vec Ideal S128x128 .f32) (x3 x5 : Vec Ideal S1x128 .f32)
    (p : Fin 4000) (q : Fin 128) :
    k0_pay1 (F := Ideal) x0 x1 x2 x4 x3 x5 (ix2 p q)
      = act epsW (pre (c2 x0) (c2 x1) (c2 x2) (c2 x4) (row2 x3) (row2 x5)) p q := by
  unfold k0_pay1
  refine (norm_at _ _ _ _ _ _ p q).trans ?_
  exact congrArg (fun f => act epsW f p q) (funext fun r => funext fun j => preblk_at x0 x1 x2 x4 x3 x5 _ _ _ _ r j)

end Cert.KernelIdeal.Region0

end
-- ==== Proof.Region0.lean ====
/-
  Region 0 of the kernel program, read as a value: whatever the buffers hold when the region is entered, the array
  its output window writes ends as ONE function of the six input arrays, index by index — the clamped, row-normalised
  layer of Spec. Each grid point loads a block of 4000 rows of the two feature arrays and the whole weights and
  biases, computes its 4000 rows of the layer, and writes them back; the 25 blocks tile the 100000 rows.
-/
import proofs.«149585_j68143951118848_1_alg».proof.Proof.Gen.KernelIdeal.Frame
import proofs.«149585_j68143951118848_1_alg».proof.Proof.Spec
import proofs.«149585_j68143951118848_1_alg».proof.Proof.Region0Pay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

/-- The layer of the six arrays the region's input windows read, as the region finds them. -/
def G (c : Dev nD) : A2 100000 128 :=
  layerA (N := 100000) (K := 128) (D := 128) (V c main_arg0) (V c main_v20) (V c main_arg3) (V c main_arg5)
    (row2 (V c main_v21)) (row2 (V c main_v22))

/-! ## Rows of the layer depend on the same rows of the features -/

/-- The pre-activation of row p of one pair of feature arrays is that of row r of another whose row r is the same. -/
theorem pre_row {N N' K D : Nat} (h hn : Fin N → Fin K → EReal) (h' hn' : Fin N' → Fin K → EReal)
    (ws wn : Fin K → Fin D → EReal) (bs bn : Fin D → EReal) (p : Fin N) (r : Fin N')
    (e : ∀ k, h p k = h' r k) (en : ∀ k, hn p k = hn' r k) (j : Fin D) :
    pre h hn ws wn bs bn p j = pre h' hn' ws wn bs bn r j := by
  unfold pre
  simp only [e, en]

/-- The clamped, normalised row p of one pre-activation is row r of another whose row r is the same. -/
theorem act_row {N N' D : Nat} (eps : EReal) (f : Fin N → Fin D → EReal) (g : Fin N' → Fin D → EReal)
    (p : Fin N) (r : Fin N') (e : ∀ k, f p k = g r k) (q : Fin D) : act eps f p q = act eps g r q := by
  unfold act
  simp only [e]

/-! ## The windows' blocks -/

/-- The zero offsets of a whole-buffer access, as a constant function. -/
theorem hz : (![0, 0] : Fin 2 → Nat) = fun _ => 0 := funext fun a => by
  match a with
  | ⟨0, _⟩ => rfl
  | ⟨1, _⟩ => rfl

/-- The printed index maps over the grid: the feature windows and the output window are at block (t, 0), the
    weights and biases at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The six input blocks at a point, by their literal types. -/
abbrev hB (c : Dev nD) (t : Fin cfg0.N) : Vec Ideal S4000x128 .f32 := iblk0 V c 0 t
abbrev hnB (c : Dev nD) (t : Fin cfg0.N) : Vec Ideal S4000x128 .f32 := iblk0 V c 1 t
abbrev wsB (c : Dev nD) (t : Fin cfg0.N) : Vec Ideal S128x128 .f32 := iblk0 V c 2 t
abbrev bsB (c : Dev nD) (t : Fin cfg0.N) : Vec Ideal S1x128 .f32 := iblk0 V c 3 t
abbrev wnB (c : Dev nD) (t : Fin cfg0.N) : Vec Ideal S128x128 .f32 := iblk0 V c 4 t
abbrev bnB (c : Dev nD) (t : Fin cfg0.N) : Vec Ideal S1x128 .f32 := iblk0 V c 5 t

/-- The feature block at point t is rows 4000 t … 4000 t + 3999 of the feature array. -/
theorem hB_at (c : Dev nD) (t : Fin cfg0.N) (p : Fin 4000) (k : Fin 128) (r : Fin 100000)
    (hr : r.val = 4000 * t.val + p.val) :
    hB V c t (ix2 p k) = (V c main_arg0 : S100000x128.Idx → EReal) (ix2 r k) := by
  obtain ⟨e0, e1, -⟩ := idx_facts t
  unfold hB iblk0
  rw [View.read_apply]
  show (V c main_arg0 : S100000x128.Idx → EReal) _ = _
  congr 1
  funext a
  apply Fin.ext
  match a with
  | ⟨0, _⟩ => show win0_0.index t (0 : Fin 2) * 4000 + 1 * p.val = r.val; rw [e0, hr]; omega
  | ⟨1, _⟩ => show win0_0.index t (1 : Fin 2) * 128 + 1 * k.val = k.val; rw [e1]; omega

/-- The aggregated-neighbour block at point t is the same rows of its array. -/
theorem hnB_at (c : Dev nD) (t : Fin cfg0.N) (p : Fin 4000) (k : Fin 128) (r : Fin 100000)
    (hr : r.val = 4000 * t.val + p.val) :
    hnB V c t (ix2 p k) = (V c main_v20 : S100000x128.Idx → EReal) (ix2 r k) := by
  obtain ⟨-, -, e0, e1, -⟩ := idx_facts t
  unfold hnB iblk0
  rw [View.read_apply]
  show (V c main_v20 : S100000x128.Idx → EReal) _ = _
  congr 1
  funext a
  apply Fin.ext
  match a with
  | ⟨0, _⟩ => show win0_1.index t (0 : Fin 2) * 4000 + 1 * p.val = r.val; rw [e0, hr]; omega
  | ⟨1, _⟩ => show win0_1.index t (1 : Fin 2) * 128 + 1 * k.val = k.val; rw [e1]; omega

/-- The weight and bias windows hold their whole arrays at every point: the self weights, -/
theorem wsB_eq (c : Dev nD) (t : Fin cfg0.N) : wsB V c t = (V c main_arg3 : S128x128.Idx → EReal) := by
  obtain ⟨-, -, -, -, e0, e1, -⟩ := idx_facts t
  funext y
  unfold wsB iblk0
  rw [View.read_apply]
  show (V c main_arg3 : S128x128.Idx → EReal) _ = _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega
/-- the self bias row, -/
theorem bsB_eq (c : Dev nD) (t : Fin cfg0.N) : bsB V c t = (V c main_v21 : S1x128.Idx → EReal) := by
  obtain ⟨-, -, -, -, -, -, e0, e1, -⟩ := idx_facts t
  funext y
  unfold bsB iblk0
  rw [View.read_apply]
  show (V c main_v21 : S1x128.Idx → EReal) _ = _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega
/-- the neighbour weights, -/
theorem wnB_eq (c : Dev nD) (t : Fin cfg0.N) : wnB V c t = (V c main_arg5 : S128x128.Idx → EReal) := by
  obtain ⟨-, -, -, -, -, -, -, -, e0, e1, -⟩ := idx_facts t
  funext y
  unfold wnB iblk0
  rw [View.read_apply]
  show (V c main_arg5 : S128x128.Idx → EReal) _ = _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega
/-- and the neighbour bias row. -/
theorem bnB_eq (c : Dev nD) (t : Fin cfg0.N) : bnB V c t = (V c main_v22 : S1x128.Idx → EReal) := by
  obtain ⟨-, -, -, -, -, -, -, -, -, -, e0, e1, -⟩ := idx_facts t
  funext y
  unfold bnB iblk0
  rw [View.read_apply]
  show (V c main_v22 : S1x128.Idx → EReal) _ = _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-! ## A block of the output is a block of the layer -/

/-- What point t stores at (p, q) of its block is the layer at the array index i whose row is 4000 t + p and whose
    column is q: the products and the row norm read only row p of the feature blocks, which is row 4000 t + p of the
    feature arrays. -/
theorem pay_blk (c : Dev nD) (t : Fin cfg0.N) (p : Fin 4000) (q : Fin 128) (i : S100000x128.Idx)
    (h0 : (i 0).val = 4000 * t.val + p.val) (h1 : (i 1).val = q.val) :
    k0_pay1 (F := Ideal) (hB V c t) (hnB V c t) (wsB V c t) (wnB V c t) (bsB V c t) (bnB V c t) (ix2 p q) = G V c i := by
  refine (pay_at (hB V c t) (hnB V c t) (wsB V c t) (wnB V c t) (bsB V c t) (bnB V c t) p q).trans ?_
  rw [wsB_eq, wnB_eq, bsB_eq, bnB_eq]
  obtain ⟨r, q', rfl⟩ : ∃ (r : Fin 100000) (q' : Fin 128), i = ix2 r q' := ⟨i 0, i 1, eq_ix2 i⟩
  obtain rfl : q' = q := Fin.ext h1
  show _ = act epsW (pre (c2 (V c main_arg0)) (c2 (V c main_v20)) (c2 (V c main_arg3)) (c2 (V c main_arg5))
    (row2 (V c main_v21)) (row2 (V c main_v22))) r q'
  refine act_row epsW _ _ p r (fun j => ?_) q'
  exact pre_row _ _ _ _ _ _ _ _ p r (fun k => hB_at V c t p k r h0) (fun k => hnB_at V c t p k r h0) j

/-- What point t writes back is block t of the layer. -/
theorem flushed_eq (c : Dev nD) (t : Fin cfg0.N) :
    (dat0 (F := Ideal) V c).flushed 6 t = ((cfg0.win 6).blk t).view.read (Elt Ideal) (G V c) := by
  obtain ⟨-, -, -, -, -, -, -, -, -, -, -, -, e0, e1⟩ := idx_facts t
  show (cfg0.win 6).cut (grid0.coords t) ((dat0 (F := Ideal) V c).after 6 t) = _
  rw [after0_6]
  unfold out0_6
  rw [View.canon_unit_zero hz]
  simp only [View.ld_unit_zero (S := S4000x128) hz, View.ld_unit_zero (S := S128x128) hz, View.ld_unit_zero (S := S1x128) hz]
  funext j
  refine (congrArg (k0_pay1 (F := Ideal) (hB V c t) (hnB V c t) (wsB V c t) (wnB V c t) (bsB V c t) (bnB V c t))
    (eq_ix2 (n0 := 4000) (n1 := 128) _)).trans ?_
  refine pay_blk V c t _ _ (((cfg0.win 6).blk t).view.emb j) ?_ ?_
  · show win0_6.index t (0 : Fin 2) * 4000 + 1 * (j 0).val = 4000 * t.val + (j 0).val
    rw [e0]; omega
  · show win0_6.index t (1 : Fin 2) * 128 + 1 * (j 1).val = (j 1).val
    rw [e1]; omega

/-! ## The blocks tile the array -/

/-- An index of the array is in point t's block iff each coordinate is in the block's range on its axis. -/
theorem mem_blk (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v23).slice (win0_6.rect t)).set ↔ _
  rw [View.set_slice_whole, Rect.mem_set_unit]
  exact Iff.rfl

/-- Row r of the array is in the block of point r / 4000, which is written back. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 4000 ≤ (i 0).val ∧ (i 0).val < win0_6.index t (0 : Fin 2) * 4000 + 4000
    rw [e0, ht]; omega
  | ⟨1, _⟩ =>
    show win0_6.index t (1 : Fin 2) * 128 ≤ (i 1).val ∧ (i 1).val < win0_6.index t (1 : Fin 2) * 128 + 128
    rw [e1]; omega

/-- The output window's array after the region is the layer of the input arrays. -/
theorem arr_eq (c : Dev nD) : (dat0 (F := Ideal) V c).arrAt 6 cfg0.N = G V c := by
  exact (dat0 (F := Ideal) V c).arrAt_eq_of_cover 6 (G V c) (fun t _ => flushed_eq V c t) cover

end Cert.KernelIdeal.Region0

end
-- ==== Proof.Region1Pay.lean ====
/-
  The second dense layer's stored value read at one index. Over the extended reals the body's arithmetic at row p,
  column q is: the two matrix products' sums over the 128 shared coordinates, added, then the two bias rows, clamped
  below at zero, and divided by the larger of the row's Euclidean norm and the fixed positive word. Narrowing to bf16
  is the identity on extended reals, the casts to the same shape are the identity, and every broadcast reads one entry.
-/
import proofs.«149585_j68143951118848_1_alg».proof.Proof.Gen.KernelIdeal.Skeleton
import proofs.«149585_j68143951118848_1_alg».proof.Proof.Spec
import proofs.«149585_j68143951118848_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Idealize.ShloMosaic Idealize.ShloMosaic.ValueIdx
open Cert.KernelIdeal Cert.KernelIdeal.Gen Cert.Sage Cert.Lib.Keepdims

/-! ## One product of the layer, entry by entry -/

/-- The left operand's row is the output's row … -/
theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and its column the summation index. -/
theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row is the summation index … -/
theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and its column the output's column. -/
theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A [4000,128] by [128,128] product accumulated into zero, at row `p` and column `q`: Σ_k x[p,k]·w[k,q]. -/
theorem matmul_zero_apply {φ₁ φ₂ : FTy} (x : FVec Ideal S4000x128 φ₁) (w : FVec Ideal S128x128 φ₂) (p : Fin 4000) (q : Fin 128) :
    matmul dot_S4000x128_S128x128_S4000x128_1_0_0_1_n_n none x w (constant (F := Ideal) S4000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The sum along a row -/

/-- The sum over the columns of a [4000,128] array, at row `p`. -/
theorem rowsum_apply (v : FVec Ideal S4000x128 .f32) (h : S4000x128.Reduces [1] S4000) (hφ : FKind.Formats .f32)
    (hacc : (0x00000000#32 : BitVec 32) = 0x00000000#32) (p : Fin 4000) :
    multiReduction (F := Ideal) .add [1] S4000 v 0x00000000#32 h hφ hacc (ix1 p) = ∑ k : Fin 128, v (ix2 p k) := by
  refine (Ideal.multiReduction_add_single v 0x00000000#32 h hφ hacc (ix1 p)).trans ?_
  refine Finset.sum_congr rfl fun k _ => congrArg v ?_
  funext a; apply Fin.ext
  match a with
  | ⟨0, _⟩ => rfl
  | ⟨1, _⟩ => rfl

/-! ## The clamp and the division by the row's norm -/

/-- Clamped at zero and divided by the larger of the row's Euclidean norm and the fixed word, at (p, q): the row's sum
    of squares goes through a one-column matrix and is repeated along the row. -/
theorem norm_apply (v : FVec Ideal S4000x128 .f32) (hred : S4000x128.Reduces [1] S4000) (hφ : FKind.Formats .f32)
    (hacc : (0x00000000#32 : BitVec 32) = 0x00000000#32) (hsc : S4000.ShapeCasts S4000x1)
    (hbc : S4000x1.Broadcasts S4000x128) (p : Fin 4000) (q : Fin 128) :
    divf (maximumf v (broadcast S4000x128 (Scalar.ofBits (F := Ideal) .f32 0x00000000#32)))
      (broadcastTo S4000x128
        (maximumf
          (sqrt (shapeCast S4000x1
            (multiReduction (F := Ideal) .add [1] S4000
              (mulf (maximumf v (broadcast S4000x128 (Scalar.ofBits (F := Ideal) .f32 0x00000000#32)))
                (maximumf v (broadcast S4000x128 (Scalar.ofBits (F := Ideal) .f32 0x00000000#32))))
              0x00000000#32 hred hφ hacc) hsc))
          (broadcast S4000x1 (Scalar.ofBits (F := Ideal) .f32 0x2B8CBCCC#32))) hbc) (ix2 p q)
      = act epsW (fun r j => v (ix2 r j)) p q := by
  unfold act
  rw [divf_apply]
  refine congrArg₂ Ideal.div ?_ ?_
  · show max (v (ix2 p q)) (Ideal.ofBits .f32 0x00000000#32) = _
    rw [Ideal.ofBits_zero_f32]
  · refine (broadcastTo_a1_ab_apply _ hbc p q).trans ?_
    show max (Ideal.sqrt (shapeCast S4000x1 _ hsc (ix2 p (0 : Fin 1)))) (Ideal.ofBits .f32 0x2B8CBCCC#32) = _
    refine congrArg (fun s => max (Ideal.sqrt s) epsW) ?_
    refine (shapeCast_a_a1_apply _ hsc p 0).trans ?_
    refine (rowsum_apply _ hred hφ hacc p).trans ?_
    refine Finset.sum_congr rfl fun k _ => ?_
    show max (v (ix2 p k)) (Ideal.ofBits .f32 0x00000000#32) * max (v (ix2 p k)) (Ideal.ofBits .f32 0x00000000#32) = _
    rw [Ideal.ofBits_zero_f32]

/-! ## The pre-activation -/

/-- Both products' sums, then the two bias rows, at (p, j). -/
theorem pre_apply (x0 x1 : Vec Ideal S4000x128 .f32) (x2 x4 : Vec Ideal S128x128 .f32) (x3 x5 : Vec Ideal S1x128 .f32)
    (hb : FTy.bits .bf16 < FTy.bits .f32) (hc : S4000x128.ShapeCasts S4000x128) (hr : S1x128.ShapeCasts S1x128)
    (hbr : S1x128.Broadcasts S4000x128) (p : Fin 4000) (j : Fin 128) :
    addf (addf (addf
        (matmul dot_S4000x128_S128x128_S4000x128_1_0_0_1_n_n none (truncf .bf16 (shapeCast S4000x128 x0 hc) hb) (truncf .bf16 x2 hb)
          (constant (F := Ideal) S4000x128 .f32 0x00000000#32))
        (matmul dot_S4000x128_S128x128_S4000x128_1_0_0_1_n_n none (truncf .bf16 (shapeCast S4000x128 x1 hc) hb) (truncf .bf16 x4 hb)
          (constant (F := Ideal) S4000x128 .f32 0x00000000#32)))
        (broadcastTo S4000x128 (shapeCast S1x128 x3 hr) hbr))
        (broadcastTo S4000x128 (shapeCast S1x128 x5 hr) hbr) (ix2 p j)
      = pre (N := 4000) (K := 128) (D := 128) (c2 x0) (c2 x1) (c2 x2) (c2 x4) (row2 x3) (row2 x5) p j := by
  simp only [shapeCast_self]
  rw [addf_apply, addf_apply, addf_apply, matmul_zero_apply, matmul_zero_apply,
    broadcastTo_1b_ab_apply, broadcastTo_1b_ab_apply]
  rfl

/-! ## The stored value -/

/-- What the body stores, at row `p` and column `q` of its block, is the normalised layer of the loaded blocks. -/
theorem pay_apply (x0 x1 : Vec Ideal S4000x128 .f32) (x2 x4 : Vec Ideal S128x128 .f32) (x3 x5 : Vec Ideal S1x128 .f32)
    (p : Fin 4000) (q : Fin 128) :
    k1_pay1 (F := Ideal) x0 x1 x2 x4 x3 x5 (ix2 p q)
      = act epsW (pre (N := 4000) (K := 128) (D := 128) (c2 x0) (c2 x1) (c2 x2) (c2 x4) (row2 x3) (row2 x5)) p q := by
  unfold k1_pay1
  refine (norm_apply _ _ _ _ _ _ p q).trans ?_
  exact congrArg (fun f => act epsW f p q) (funext fun r => funext fun j => pre_apply x0 x1 x2 x4 x3 x5 _ _ _ _ r j)

end Cert.KernelIdeal.Region1

end
-- ==== Proof.Region1.lean ====
/-
  Region 1 of the kernel program, read as a value: whatever the buffers hold when the region is entered, the array
  its output window writes ends as ONE function of the six input arrays, index by index — the clamped, row-normalised
  layer of Spec. Each grid point loads a block of 4000 rows of the two feature arrays and the whole weights and
  biases, computes its 4000 rows of the layer, and writes them back; the 25 blocks tile the 100000 rows.
-/
import proofs.«149585_j68143951118848_1_alg».proof.Proof.Gen.KernelIdeal.Frame
import proofs.«149585_j68143951118848_1_alg».proof.Proof.Spec
import proofs.«149585_j68143951118848_1_alg».proof.Proof.Region1Pay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

/-- The layer of the six arrays the region's input windows read, as the region finds them. -/
def G (c : Dev nD) : A2 100000 128 :=
  layerA (N := 100000) (K := 128) (D := 128) (V c main_v23) (V c main_v36) (V c main_arg7) (V c main_arg9)
    (row2 (V c main_v37)) (row2 (V c main_v38))

/-! ## From the blocks to the array -/

/-- The zero offsets of a whole block, as a function of the axis. -/
theorem hz : (![0, 0] : Fin 2 → Nat) = fun _ => 0 := funext fun a => by fin_cases a <;> rfl

/-- The index maps over the grid: point `t` takes block `t` of the rows of the two feature arrays and of the output,
    on their one block of columns; the weights and the biases are one block each, the same at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- There are 25 grid points. -/
theorem pt_lt (t : Fin cfg1.N) : t.val < 25 := lt_of_lt_of_eq t.isLt N_1

/-- Row `p` of point `t`'s block is row `4000·t + p` of the array. -/
def rowOf (t : Fin cfg1.N) (p : Fin 4000) : Fin 100000 :=
  ⟨4000 * t.val + p.val, by have := pt_lt t; have := p.isLt; omega⟩

/-- Where the output block's entry (p, q) sits in the array. -/
theorem out_emb (t : Fin cfg1.N) (p : Fin 4000) (q : Fin 128) :
    ((cfg1.win 6).blk t).view.emb (ix2 p q) = (ix2 (rowOf t p) q : S100000x128.Idx) := by
  obtain ⟨-, -, -, -, -, -, -, -, -, -, -, -, e0, e1⟩ := idx_facts t
  funext a; apply Fin.ext
  match a with
  | ⟨0, _⟩ => show win1_6.index t (0 : Fin 2) * 4000 + 1 * p.val = 4000 * t.val + p.val; omega
  | ⟨1, _⟩ => show win1_6.index t (1 : Fin 2) * 128 + 1 * q.val = q.val; omega

/-- A row of point `t`'s block of the node features is the same row of its 4000 in the array. -/
theorem h_row (c : Dev nD) (t : Fin cfg1.N) (p : Fin 4000) :
    c2 (a := 4000) (b := 128) (iblk1 V c 0 t) p = c2 (a := 100000) (b := 128) (V c main_v23) (rowOf t p) := by
  obtain ⟨e0, e1, -⟩ := idx_facts t
  funext k
  show V c main_v23 (((cfg1.win 0).blk t).view.emb (ix2 p k)) = V c main_v23 (ix2 (rowOf t p) k)
  refine congrArg (V c main_v23) (funext fun a => Fin.ext ?_)
  match a with
  | ⟨0, _⟩ => show win1_0.index t (0 : Fin 2) * 4000 + 1 * p.val = 4000 * t.val + p.val; omega
  | ⟨1, _⟩ => show win1_0.index t (1 : Fin 2) * 128 + 1 * k.val = k.val; omega

/-- The same for the neighbour features. -/
theorem hn_row (c : Dev nD) (t : Fin cfg1.N) (p : Fin 4000) :
    c2 (a := 4000) (b := 128) (iblk1 V c 1 t) p = c2 (a := 100000) (b := 128) (V c main_v36) (rowOf t p) := by
  obtain ⟨-, -, e0, e1, -⟩ := idx_facts t
  funext k
  show V c main_v36 (((cfg1.win 1).blk t).view.emb (ix2 p k)) = V c main_v36 (ix2 (rowOf t p) k)
  refine congrArg (V c main_v36) (funext fun a => Fin.ext ?_)
  match a with
  | ⟨0, _⟩ => show win1_1.index t (0 : Fin 2) * 4000 + 1 * p.val = 4000 * t.val + p.val; omega
  | ⟨1, _⟩ => show win1_1.index t (1 : Fin 2) * 128 + 1 * k.val = k.val; omega

/-- Each weight matrix is loaded whole at every point … -/
theorem ws_blk (c : Dev nD) (t : Fin cfg1.N) :
    c2 (a := 128) (b := 128) (iblk1 V c 2 t) = c2 (a := 128) (b := 128) (V c main_arg7) := by
  obtain ⟨-, -, -, -, e0, e1, -⟩ := idx_facts t
  funext k j
  show V c main_arg7 (((cfg1.win 2).blk t).view.emb (ix2 k j)) = V c main_arg7 (ix2 k j)
  refine congrArg (V c main_arg7) (funext fun a => Fin.ext ?_)
  match a with
  | ⟨0, _⟩ => show win1_2.index t (0 : Fin 2) * 128 + 1 * k.val = k.val; omega
  | ⟨1, _⟩ => show win1_2.index t (1 : Fin 2) * 128 + 1 * j.val = j.val; omega
theorem wn_blk (c : Dev nD) (t : Fin cfg1.N) :
    c2 (a := 128) (b := 128) (iblk1 V c 4 t) = c2 (a := 128) (b := 128) (V c main_arg9) := by
  obtain ⟨-, -, -, -, -, -, -, -, e0, e1, -⟩ := idx_facts t
  funext k j
  show V c main_arg9 (((cfg1.win 4).blk t).view.emb (ix2 k j)) = V c main_arg9 (ix2 k j)
  refine congrArg (V c main_arg9) (funext fun a => Fin.ext ?_)
  match a with
  | ⟨0, _⟩ => show win1_4.index t (0 : Fin 2) * 128 + 1 * k.val = k.val; omega
  | ⟨1, _⟩ => show win1_4.index t (1 : Fin 2) * 128 + 1 * j.val = j.val; omega

/-- … and so is each bias row. -/
theorem bs_blk (c : Dev nD) (t : Fin cfg1.N) :
    row2 (D := 128) (iblk1 V c 3 t) = row2 (D := 128) (V c main_v37) := by
  obtain ⟨-, -, -, -, -, -, e0, e1, -⟩ := idx_facts t
  funext j
  show V c main_v37 (((cfg1.win 3).blk t).view.emb (ix2 (0 : Fin 1) j)) = V c main_v37 (ix2 (0 : Fin 1) j)
  refine congrArg (V c main_v37) (funext fun a => Fin.ext ?_)
  match a with
  | ⟨0, _⟩ => show win1_3.index t (0 : Fin 2) * 1 + 1 * 0 = 0; omega
  | ⟨1, _⟩ => show win1_3.index t (1 : Fin 2) * 128 + 1 * j.val = j.val; omega
theorem bn_blk (c : Dev nD) (t : Fin cfg1.N) :
    row2 (D := 128) (iblk1 V c 5 t) = row2 (D := 128) (V c main_v38) := by
  obtain ⟨-, -, -, -, -, -, -, -, -, -, e0, e1, -⟩ := idx_facts t
  funext j
  show V c main_v38 (((cfg1.win 5).blk t).view.emb (ix2 (0 : Fin 1) j)) = V c main_v38 (ix2 (0 : Fin 1) j)
  refine congrArg (V c main_v38) (funext fun a => Fin.ext ?_)
  match a with
  | ⟨0, _⟩ => show win1_5.index t (0 : Fin 2) * 1 + 1 * 0 = 0; omega
  | ⟨1, _⟩ => show win1_5.index t (1 : Fin 2) * 128 + 1 * j.val = j.val; omega

/-- What point `t` writes back is block `t` of the layer of the six arrays: a row of the layer, its norm included,
    uses only the same row of the two feature arrays, which the point's blocks hold, and all of the weights and biases. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 (F := Ideal) V c).after 6 t) = _
  rw [after1_6]
  unfold out1_6
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  show k1_pay1 (iblk1 V c 0 t) (iblk1 V c 1 t) (iblk1 V c 2 t) (iblk1 V c 4 t) (iblk1 V c 3 t) (iblk1 V c 5 t) (ix2 p q)
    = G V c (((cfg1.win 6).blk t).view.emb (ix2 p q))
  refine (pay_apply _ _ _ _ _ _ p q).trans ?_
  rw [out_emb]
  unfold G layerA
  rw [u2_ix2]
  have hrow : pre (N := 4000) (K := 128) (D := 128) (c2 (iblk1 V c 0 t)) (c2 (iblk1 V c 1 t)) (c2 (iblk1 V c 2 t)) (c2 (iblk1 V c 4 t))
        (row2 (iblk1 V c 3 t)) (row2 (iblk1 V c 5 t)) p
      = pre (N := 100000) (K := 128) (D := 128) (c2 (V c main_v23)) (c2 (V c main_v36)) (c2 (V c main_arg7)) (c2 (V c main_arg9))
        (row2 (V c main_v37)) (row2 (V c main_v38)) (rowOf t p) := by
    funext j
    unfold pre
    rw [h_row, hn_row, ws_blk, wn_blk, bs_blk, bn_blk]
  unfold act
  rw [hrow]

/-- An index of the array is in point `t`'s block iff each coordinate is in the block's range on its axis. -/
theorem mem_blk (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v39).slice (win1_6.rect t)).set ↔ _
  rw [View.set_slice_whole, Rect.mem_set_unit]
  exact Iff.rfl

/-- The 25 blocks tile the 100000 rows: row `r` is in the block of point `r / 4000`. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 4000 :=
    ⟨⟨(i 0).val / 4000, by rw [show cfg1.N = 25 from N_1]; omega⟩, rfl⟩
  obtain ⟨-, -, -, -, -, -, -, -, -, -, -, -, e0, e1⟩ := idx_facts t
  refine ⟨t, flush1_6 t, ?_⟩
  rw [mem_blk]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- The output window's array after the region is the layer of the input arrays. -/
theorem arr_eq (c : Dev nD) : (dat1 (F := Ideal) V c).arrAt 6 cfg1.N = G V c := by
  exact (dat1 (F := Ideal) V c).arrAt_eq_of_cover 6 (G V c) (fun t _ => flushed_eq V c t) cover

end Cert.KernelIdeal.Region1

end
-- ==== Proof.Region2.lean ====
/-
  Region 2 of the kernel program, read as a value: whatever the buffers hold when the region is entered, the array
  its output window writes ends as ONE function of the six input arrays, index by index — the linear
  layer of Spec. Each grid point loads a block of 4000 rows of the two feature arrays and the whole weights and
  biases, computes its 4000 rows of the layer, and writes them back; the 25 blocks tile the 100000 rows.
-/
import proofs.«149585_j68143951118848_1_alg».proof.Proof.Gen.KernelIdeal.Frame
import proofs.«149585_j68143951118848_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

/-- The layer of the six arrays the region's input windows read, as the region finds them. -/
def G (c : Dev nD) : A2 100000 40 :=
  layerL (N := 100000) (K := 128) (D := 40) (V c main_v39) (V c main_v52) (V c main_arg11) (V c main_arg13)
    (row2 (V c main_v53)) (row2 (V c main_v54))

/-! ## One product of the layer, entry by entry -/

/-- The left operand's row is the output's row … -/
theorem lhs_dot_0 (i : S4000x40.Idx) (q : dot_S4000x128_S128x40_S4000x40_1_0_0_1_n_n.contr.Idx) :
    (dot_S4000x128_S128x40_S4000x40_1_0_0_1_n_n.lhsIdx i q 0).val = (i 0).val := by
  unfold DotDims.lhsIdx
  rw [dif_neg (show ¬(0 : Fin S4000x128.rank) ∈ dot_S4000x128_S128x40_S4000x40_1_0_0_1_n_n.lhsBatch by decide), dif_pos (show (0 : Fin S4000x128.rank) ∈ dot_S4000x128_S128x40_S4000x40_1_0_0_1_n_n.lhsNonContracting by decide)]
  rfl
/-- … and its column the summation index. -/
theorem lhs_dot_1 (i : S4000x40.Idx) (q : dot_S4000x128_S128x40_S4000x40_1_0_0_1_n_n.contr.Idx) :
    (dot_S4000x128_S128x40_S4000x40_1_0_0_1_n_n.lhsIdx i q 1).val = (q ⟨0, by decide⟩).val :=
  dot_S4000x128_S128x40_S4000x40_1_0_0_1_n_n.lhsIdx_val_of_single rfl i q
/-- The right operand's row is the summation index … -/
theorem rhs_dot_0 (i : S4000x40.Idx) (q : dot_S4000x128_S128x40_S4000x40_1_0_0_1_n_n.contr.Idx) :
    (dot_S4000x128_S128x40_S4000x40_1_0_0_1_n_n.rhsIdx i q 0).val = (q ⟨0, by decide⟩).val :=
  dot_S4000x128_S128x40_S4000x40_1_0_0_1_n_n.rhsIdx_val_of_single rfl i q
/-- … and its column the output's column. -/
theorem rhs_dot_1 (i : S4000x40.Idx) (q : dot_S4000x128_S128x40_S4000x40_1_0_0_1_n_n.contr.Idx) :
    (dot_S4000x128_S128x40_S4000x40_1_0_0_1_n_n.rhsIdx i q 1).val = (i 1).val := by
  unfold DotDims.rhsIdx
  rw [dif_neg (show ¬(1 : Fin S128x40.rank) ∈ dot_S4000x128_S128x40_S4000x40_1_0_0_1_n_n.rhsBatch by decide), dif_pos (show (1 : Fin S128x40.rank) ∈ dot_S4000x128_S128x40_S4000x40_1_0_0_1_n_n.rhsNonContracting by decide)]
  rfl

/-- A [4000,128] by [128,40] product accumulated into zero, at row `p` and column `q`: Σ_k x[p,k]·w[k,q]. -/
theorem matmul_zero_apply {φ₁ φ₂ : FTy} (x : FVec Ideal S4000x128 φ₁) (w : FVec Ideal S128x40 φ₂) (p : Fin 4000) (q : Fin 40) :
    matmul dot_S4000x128_S128x40_S4000x40_1_0_0_1_n_n none x w (constant (F := Ideal) S4000x40 .f32 0x00000000#32) (ix2 p q)
      = ∑ k : Fin 128, x (ix2 p k) * w (ix2 k q) := by
  simp only [matmul]
  rw [Ideal.matmul_constant_zero_apply, ← Equiv.sum_comp (ValueIdx.contrEquiv1 dot_S4000x128_S128x40_S4000x40_1_0_0_1_n_n 128 rfl rfl).symm]
  refine Finset.sum_congr rfl fun k _ => ?_
  have hk := ValueIdx.contrEquiv1_symm_val dot_S4000x128_S128x40_S4000x40_1_0_0_1_n_n 128 rfl rfl k
  have el : dot_S4000x128_S128x40_S4000x40_1_0_0_1_n_n.lhsIdx (ix2 p q) ((ValueIdx.contrEquiv1 dot_S4000x128_S128x40_S4000x40_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x40_S4000x40_1_0_0_1_n_n.rhsIdx (ix2 p q) ((ValueIdx.contrEquiv1 dot_S4000x128_S128x40_S4000x40_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The body's payload at row `p`, column `q` of its block: the layer's pre-activation of the loaded blocks. The
    narrowing to bf16 and the casts to the same shape are identities on the extended reals; each bias row is
    repeated down the 4000 rows. -/
theorem pay_apply (x0 x1 : Vec Ideal S4000x128 .f32) (x2 x4 : Vec Ideal S128x40 .f32) (x3 x5 : Vec Ideal S1x40 .f32)
    (p : Fin 4000) (q : Fin 40) :
    k2_pay1 x0 x1 x2 x4 x3 x5 (ix2 p q)
      = pre (N := 4000) (K := 128) (D := 40) (c2 x0) (c2 x1) (c2 x2) (c2 x4) (row2 x3) (row2 x5) p q := by
  unfold k2_pay1
  simp only [shapeCast_self]
  rw [addf_apply, addf_apply, addf_apply, matmul_zero_apply, matmul_zero_apply,
    broadcastTo_1b_ab_apply, broadcastTo_1b_ab_apply]
  rfl

/-! ## From the blocks to the array -/

/-- The zero offsets of a whole block, as a function of the axis. -/
theorem hz : (![0, 0] : Fin 2 → Nat) = fun _ => 0 := funext fun a => by fin_cases a <;> rfl

/-- The index maps over the grid: point `t` takes block `t` of the rows of the two feature arrays and of the output,
    on their one block of columns; the weights and the biases are one block each, the same at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- There are 25 grid points. -/
theorem pt_lt (t : Fin cfg2.N) : t.val < 25 := lt_of_lt_of_eq t.isLt N_2

/-- Row `p` of point `t`'s block is row `4000·t + p` of the array. -/
def rowOf (t : Fin cfg2.N) (p : Fin 4000) : Fin 100000 :=
  ⟨4000 * t.val + p.val, by have := pt_lt t; have := p.isLt; omega⟩

/-- Where the output block's entry (p, q) sits in the array. -/
theorem out_emb (t : Fin cfg2.N) (p : Fin 4000) (q : Fin 40) :
    ((cfg2.win 6).blk t).view.emb (ix2 p q) = (ix2 (rowOf t p) q : S100000x40.Idx) := by
  obtain ⟨-, -, -, -, -, -, -, -, -, -, -, -, e0, e1⟩ := idx_facts t
  funext a; apply Fin.ext
  match a with
  | ⟨0, _⟩ => show win2_6.index t (0 : Fin 2) * 4000 + 1 * p.val = 4000 * t.val + p.val; omega
  | ⟨1, _⟩ => show win2_6.index t (1 : Fin 2) * 40 + 1 * q.val = q.val; omega

/-- A row of point `t`'s block of the node features is the same row of its 4000 in the array. -/
theorem h_row (c : Dev nD) (t : Fin cfg2.N) (p : Fin 4000) :
    c2 (a := 4000) (b := 128) (iblk2 V c 0 t) p = c2 (a := 100000) (b := 128) (V c main_v39) (rowOf t p) := by
  obtain ⟨e0, e1, -⟩ := idx_facts t
  funext k
  show V c main_v39 (((cfg2.win 0).blk t).view.emb (ix2 p k)) = V c main_v39 (ix2 (rowOf t p) k)
  refine congrArg (V c main_v39) (funext fun a => Fin.ext ?_)
  match a with
  | ⟨0, _⟩ => show win2_0.index t (0 : Fin 2) * 4000 + 1 * p.val = 4000 * t.val + p.val; omega
  | ⟨1, _⟩ => show win2_0.index t (1 : Fin 2) * 128 + 1 * k.val = k.val; omega

/-- The same for the neighbour features. -/
theorem hn_row (c : Dev nD) (t : Fin cfg2.N) (p : Fin 4000) :
    c2 (a := 4000) (b := 128) (iblk2 V c 1 t) p = c2 (a := 100000) (b := 128) (V c main_v52) (rowOf t p) := by
  obtain ⟨-, -, e0, e1, -⟩ := idx_facts t
  funext k
  show V c main_v52 (((cfg2.win 1).blk t).view.emb (ix2 p k)) = V c main_v52 (ix2 (rowOf t p) k)
  refine congrArg (V c main_v52) (funext fun a => Fin.ext ?_)
  match a with
  | ⟨0, _⟩ => show win2_1.index t (0 : Fin 2) * 4000 + 1 * p.val = 4000 * t.val + p.val; omega
  | ⟨1, _⟩ => show win2_1.index t (1 : Fin 2) * 128 + 1 * k.val = k.val; omega

/-- Each weight matrix is loaded whole at every point … -/
theorem ws_blk (c : Dev nD) (t : Fin cfg2.N) :
    c2 (a := 128) (b := 40) (iblk2 V c 2 t) = c2 (a := 128) (b := 40) (V c main_arg11) := by
  obtain ⟨-, -, -, -, e0, e1, -⟩ := idx_facts t
  funext k j
  show V c main_arg11 (((cfg2.win 2).blk t).view.emb (ix2 k j)) = V c main_arg11 (ix2 k j)
  refine congrArg (V c main_arg11) (funext fun a => Fin.ext ?_)
  match a with
  | ⟨0, _⟩ => show win2_2.index t (0 : Fin 2) * 128 + 1 * k.val = k.val; omega
  | ⟨1, _⟩ => show win2_2.index t (1 : Fin 2) * 40 + 1 * j.val = j.val; omega
theorem wn_blk (c : Dev nD) (t : Fin cfg2.N) :
    c2 (a := 128) (b := 40) (iblk2 V c 4 t) = c2 (a := 128) (b := 40) (V c main_arg13) := by
  obtain ⟨-, -, -, -, -, -, -, -, e0, e1, -⟩ := idx_facts t
  funext k j
  show V c main_arg13 (((cfg2.win 4).blk t).view.emb (ix2 k j)) = V c main_arg13 (ix2 k j)
  refine congrArg (V c main_arg13) (funext fun a => Fin.ext ?_)
  match a with
  | ⟨0, _⟩ => show win2_4.index t (0 : Fin 2) * 128 + 1 * k.val = k.val; omega
  | ⟨1, _⟩ => show win2_4.index t (1 : Fin 2) * 40 + 1 * j.val = j.val; omega

/-- … and so is each bias row. -/
theorem bs_blk (c : Dev nD) (t : Fin cfg2.N) :
    row2 (D := 40) (iblk2 V c 3 t) = row2 (D := 40) (V c main_v53) := by
  obtain ⟨-, -, -, -, -, -, e0, e1, -⟩ := idx_facts t
  funext j
  show V c main_v53 (((cfg2.win 3).blk t).view.emb (ix2 (0 : Fin 1) j)) = V c main_v53 (ix2 (0 : Fin 1) j)
  refine congrArg (V c main_v53) (funext fun a => Fin.ext ?_)
  match a with
  | ⟨0, _⟩ => show win2_3.index t (0 : Fin 2) * 1 + 1 * 0 = 0; omega
  | ⟨1, _⟩ => show win2_3.index t (1 : Fin 2) * 40 + 1 * j.val = j.val; omega
theorem bn_blk (c : Dev nD) (t : Fin cfg2.N) :
    row2 (D := 40) (iblk2 V c 5 t) = row2 (D := 40) (V c main_v54) := by
  obtain ⟨-, -, -, -, -, -, -, -, -, -, e0, e1, -⟩ := idx_facts t
  funext j
  show V c main_v54 (((cfg2.win 5).blk t).view.emb (ix2 (0 : Fin 1) j)) = V c main_v54 (ix2 (0 : Fin 1) j)
  refine congrArg (V c main_v54) (funext fun a => Fin.ext ?_)
  match a with
  | ⟨0, _⟩ => show win2_5.index t (0 : Fin 2) * 1 + 1 * 0 = 0; omega
  | ⟨1, _⟩ => show win2_5.index t (1 : Fin 2) * 40 + 1 * j.val = j.val; omega

/-- What point `t` writes back is block `t` of the layer of the six arrays: a row of the layer uses only the same
    row of the two feature arrays, which the point's blocks hold, and all of the weights and biases. -/
theorem flushed_eq (c : Dev nD) (t : Fin cfg2.N) :
    (dat2 (F := Ideal) V c).flushed 6 t = ((cfg2.win 6).blk t).view.read (Elt Ideal) (G V c) := by
  show (cfg2.win 6).cut (grid2.coords t) ((dat2 (F := Ideal) V c).after 6 t) = _
  rw [after2_6]
  unfold out2_6
  rw [View.canon_unit_zero hz]
  simp only [View.ld_unit_zero (S := S4000x128) hz, View.ld_unit_zero (S := S128x40) hz, View.ld_unit_zero (S := S1x40) hz]
  funext j
  obtain ⟨p, q, rfl⟩ : ∃ (p : Fin 4000) (q : Fin 40), j = ix2 p q := ⟨j 0, j 1, eq_ix2 j⟩
  show k2_pay1 (iblk2 V c 0 t) (iblk2 V c 1 t) (iblk2 V c 2 t) (iblk2 V c 4 t) (iblk2 V c 3 t) (iblk2 V c 5 t) (ix2 p q)
    = G V c (((cfg2.win 6).blk t).view.emb (ix2 p q))
  refine (pay_apply _ _ _ _ _ _ p q).trans ?_
  rw [out_emb]
  unfold G layerL
  rw [u2_ix2]
  unfold pre
  rw [h_row, hn_row, ws_blk, wn_blk, bs_blk, bn_blk]

/-- An index of the array is in point `t`'s block iff each coordinate is in the block's range on its axis. -/
theorem mem_blk (t : Fin cfg2.N) (i : S100000x40.Idx) :
    i ∈ ((cfg2.win 6).blk t).view.set ↔ ∀ a : Fin 2, win2_6.index t a * S4000x40.size a ≤ (i a).val ∧ (i a).val < win2_6.index t a * S4000x40.size a + S4000x40.size a := by
  show i ∈ ((View.whole main_v55).slice (win2_6.rect t)).set ↔ _
  rw [View.set_slice_whole, Rect.mem_set_unit]
  exact Iff.rfl

/-- The 25 blocks tile the 100000 rows: row `r` is in the block of point `r / 4000`. -/
theorem cover (i : S100000x40.Idx) :
    ∃ t : Fin cfg2.N, (cfg2.win 6).flush t = true ∧ i ∈ ((cfg2.win 6).blk t).view.set := by
  have hi0 : (i 0).val < 100000 := (i 0).isLt
  have hi1 : (i 1).val < 40 := (i 1).isLt
  obtain ⟨t, ht⟩ : ∃ t : Fin cfg2.N, t.val = (i 0).val / 4000 :=
    ⟨⟨(i 0).val / 4000, by rw [show cfg2.N = 25 from N_2]; omega⟩, rfl⟩
  obtain ⟨-, -, -, -, -, -, -, -, -, -, -, -, e0, e1⟩ := idx_facts t
  refine ⟨t, flush2_6 t, ?_⟩
  rw [mem_blk]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 40 ≤ (i 1).val ∧ (i 1).val < win2_6.index t (1 : Fin 2) * 40 + 40; omega

/-- The output window's array after the region is the layer of the input arrays. -/
theorem arr_eq (c : Dev nD) : (dat2 (F := Ideal) V c).arrAt 6 cfg2.N = G V c := by
  exact (dat2 (F := Ideal) V c).arrAt_eq_of_cover 6 (G V c) (fun t _ => flushed_eq V c t) cover

end Cert.KernelIdeal.Region2

end
-- ==== Proof.Fold.lean ====
/-
  The kernel program's result array, read back through the run. The run's buffer contents at each segment boundary
  are a fold from the launch memory: a host stretch applies its operations, a region leaves its output window's array
  at the layer of the arrays it read (Region0, Region1, Region2) and every other buffer as it found it. Walking the
  fold back from the result's buffer at the last boundary to the launch memory gives the program's value as one
  function of its fifteen arguments (ChainK): three layers, each over the previous layer's rows and their neighbour
  mean, the reciprocal of the clamped in-degree computed once before the first layer and kept by every later segment.
-/
import proofs.«149585_j68143951118848_1_alg».proof.Proof.Gen.KernelIdeal.Frame
import proofs.«149585_j68143951118848_1_alg».proof.Proof.ChainK
import proofs.«149585_j68143951118848_1_alg».proof.Proof.Region0
import proofs.«149585_j68143951118848_1_alg».proof.Proof.Region1
import proofs.«149585_j68143951118848_1_alg».proof.Proof.Region2
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Fold

open Idealize.ShloMosaic Idealize.ShloMosaic.TcCoe Idealize.SL.Sem Idealize.ShloMosaic.ValueIdx
open Cert.KernelIdeal Cert.KernelIdeal.Gen Cert.Sage

variable (m : (ℓ : Loc nD τ sig) → Buf (Elt Ideal) ℓ) (ρ : Dev nD → PrngReg)

/-! ## The host stretches, over any contents -/

section Host

variable (V : Valuation τ sig (Elt Ideal))

/-- The references the operations of host stretch 0 write. -/
abbrev hostOps0_W : List (Ref sig .tc) := [main_cst, main_v0, main_cst_0, main_v1, main_v2, main_v3, main_cst_1, main_v4, main_v5, main_cst_2, main_v6, main_v7, main_c, main_v8, main_v9, main_c_3, main_v10, main_v11, main_v12, main_v13, main_v14, main_cst_4, main_v15, main_v16, main_v17, main_v18, main_v19, main_v20, main_v21, main_v22]
theorem hostOps0_writes : (hostOps0 : List (HloOp τ sig (Elt Ideal))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference host stretch 0 does not write keeps its contents. -/
theorem keep0 (r : Ref sig .tc) (h : r ∉ hostOps0_W) : StableHlo.after hostOps0 V (Proc.devRef .tc r) = V (Proc.devRef .tc r) :=
  StableHlo.after_of_writes_sub hostOps0 V hostOps0_writes h

/-- The references the operations of host stretch 1 write. -/
abbrev hostOps1_W : List (Ref sig .tc) := [main_c_5, main_v24, main_v25, main_c_6, main_v26, main_v27, main_v28, main_v29, main_v30, main_cst_7, main_v31, main_v32, main_v33, main_v34, main_v35, main_v36, main_v37, main_v38]
theorem hostOps1_writes : (hostOps1 : List (HloOp τ sig (Elt Ideal))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference host stretch 1 does not write keeps its contents. -/
theorem keep1 (r : Ref sig .tc) (h : r ∉ hostOps1_W) : StableHlo.after hostOps1 V (Proc.devRef .tc r) = V (Proc.devRef .tc r) :=
  StableHlo.after_of_writes_sub hostOps1 V hostOps1_writes h

/-- The references the operations of host stretch 2 write. -/
abbrev hostOps2_W : List (Ref sig .tc) := [main_c_8, main_v40, main_v41, main_c_9, main_v42, main_v43, main_v44, main_v45, main_v46, main_cst_10, main_v47, main_v48, main_v49, main_v50, main_v51, main_v52, main_v53, main_v54]
theorem hostOps2_writes : (hostOps2 : List (HloOp τ sig (Elt Ideal))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference host stretch 2 does not write keeps its contents. -/
theorem keep2 (r : Ref sig .tc) (h : r ∉ hostOps2_W) : StableHlo.after hostOps2 V (Proc.devRef .tc r) = V (Proc.devRef .tc r) :=
  StableHlo.after_of_writes_sub hostOps2 V hostOps2_writes h

/-! ### What the first stretch computes -/

/-- The reciprocal of the clamped in-degree, from the destinations. -/
theorem H0_v7 : StableHlo.after hostOps0 V (Proc.devRef .tc main_v7) = Chain.degInv (V (Proc.devRef .tc main_arg2)) := by
  after_results
  rfl

set_option maxHeartbeats 1000000 in
/-- The neighbour mean of the features. -/
theorem H0_v20 : StableHlo.after hostOps0 V (Proc.devRef .tc main_v20)
    = Chain.hn (V (Proc.devRef .tc main_arg0)) (V (Proc.devRef .tc main_arg1)) (V (Proc.devRef .tc main_arg2)) := by
  after_results_simp
  rfl

/-- A bias vector held as a one-row matrix reads, along its row, the vector. -/
theorem H0_v21 : row2 (StableHlo.after hostOps0 V (Proc.devRef .tc main_v21)) = row (V (Proc.devRef .tc main_arg4)) := by
  after_results
  funext j
  exact shapeCast_a_1a_apply (a := 128) (V (Proc.devRef .tc main_arg4)) shapeCasts_S128_S1x128 0 j
theorem H0_v22 : row2 (StableHlo.after hostOps0 V (Proc.devRef .tc main_v22)) = row (V (Proc.devRef .tc main_arg6)) := by
  after_results
  funext j
  exact shapeCast_a_1a_apply (a := 128) (V (Proc.devRef .tc main_arg6)) shapeCasts_S128_S1x128 0 j

/-! ### What the second stretch computes -/

set_option maxHeartbeats 1000000 in
/-- The neighbour sum of the first layer's rows times the kept reciprocal. -/
theorem H1_v36 : StableHlo.after hostOps1 V (Proc.devRef .tc main_v36)
    = mulf (F := Ideal) (Chain.agg (V (Proc.devRef .tc main_v23)) (V (Proc.devRef .tc main_arg1)) (V (Proc.devRef .tc main_arg2)))
        (Chain.bc (V (Proc.devRef .tc main_v7))) := by
  after_results_simp
  rfl
theorem H1_v37 : row2 (StableHlo.after hostOps1 V (Proc.devRef .tc main_v37)) = row (V (Proc.devRef .tc main_arg8)) := by
  after_results
  funext j
  exact shapeCast_a_1a_apply (a := 128) (V (Proc.devRef .tc main_arg8)) shapeCasts_S128_S1x128 0 j
theorem H1_v38 : row2 (StableHlo.after hostOps1 V (Proc.devRef .tc main_v38)) = row (V (Proc.devRef .tc main_arg10)) := by
  after_results
  funext j
  exact shapeCast_a_1a_apply (a := 128) (V (Proc.devRef .tc main_arg10)) shapeCasts_S128_S1x128 0 j

/-! ### What the third stretch computes -/

set_option maxHeartbeats 1000000 in
/-- The neighbour sum of the second layer's rows times the kept reciprocal. -/
theorem H2_v52 : StableHlo.after hostOps2 V (Proc.devRef .tc main_v52)
    = mulf (F := Ideal) (Chain.agg (V (Proc.devRef .tc main_v39)) (V (Proc.devRef .tc main_arg1)) (V (Proc.devRef .tc main_arg2)))
        (Chain.bc (V (Proc.devRef .tc main_v7))) := by
  after_results_simp
  rfl
theorem H2_v53 : row2 (StableHlo.after hostOps2 V (Proc.devRef .tc main_v53)) = row (V (Proc.devRef .tc main_arg12)) := by
  after_results
  funext j
  exact shapeCast_a_1a_apply (a := 40) (V (Proc.devRef .tc main_arg12)) shapeCasts_S40_S1x40 0 j
theorem H2_v54 : row2 (StableHlo.after hostOps2 V (Proc.devRef .tc main_v54)) = row (V (Proc.devRef .tc main_arg14)) := by
  after_results
  funext j
  exact shapeCast_a_1a_apply (a := 40) (V (Proc.devRef .tc main_arg14)) shapeCasts_S40_S1x40 0 j

end Host

/-! ## Equal arrays give equal layers -/

theorem layerA_congr {N K D : Nat} {h h' hn hn' : A2 N K} {ws ws' wn wn' : A2 K D} {bs bs' bn bn' : Fin D → EReal}
    (e1 : h = h') (e2 : hn = hn') (e3 : ws = ws') (e4 : wn = wn') (e5 : bs = bs') (e6 : bn = bn') :
    layerA h hn ws wn bs bn = layerA h' hn' ws' wn' bs' bn' := by
  subst e1 e2 e3 e4 e5 e6; rfl
theorem layerL_congr {N K D : Nat} {h h' hn hn' : A2 N K} {ws ws' wn wn' : A2 K D} {bs bs' bn bn' : Fin D → EReal}
    (e1 : h = h') (e2 : hn = hn') (e3 : ws = ws') (e4 : wn = wn') (e5 : bs = bs') (e6 : bn = bn') :
    layerL h hn ws wn bs bn = layerL h' hn' ws' wn' bs' bn' := by
  subst e1 e2 e3 e4 e5 e6; rfl

/-- The neighbour sum times a reciprocal that is the clamped in-degree's is the neighbour mean. -/
theorem hn_congr {h h' : Chain.FArr S100000x128} {s s' d d' : Chain.IArr S1600000} {v : Chain.FArr S100000}
    (e1 : h = h') (e2 : s = s') (e3 : d = d') (e4 : v = Chain.degInv d') :
    mulf (F := Ideal) (Chain.agg h s d) (Chain.bc v) = Chain.hn h' s' d' := by
  subst e1 e2 e3 e4; rfl

/-! ## The walk, boundary by boundary -/

section Walk

variable (c : Dev nD)

/-! ### A buffer no segment so far has written holds the launch memory's array -/

theorem W1_of (r : Ref sig .tc) (h0 : r ∉ hostOps0_W) : W1 m ρ c (Proc.devRef .tc r) = m ((c : Thread nD τ).loc r) :=
  (keep0 (W0 m ρ c) r h0).trans rfl
theorem W2_of (r : Ref sig .tc) (h0 : r ∉ hostOps0_W) (h1 : ∀ w, Pipeline.arrRef spec0 w ≠ r) :
    W2 m ρ c (Proc.devRef .tc r) = m ((c : Thread nD τ).loc r) :=
  (W2_of_ne m ρ c r h1).trans (W1_of m ρ c r h0)
theorem W3_of (r : Ref sig .tc) (h0 : r ∉ hostOps0_W) (h1 : ∀ w, Pipeline.arrRef spec0 w ≠ r) (h2 : r ∉ hostOps1_W) :
    W3 m ρ c (Proc.devRef .tc r) = m ((c : Thread nD τ).loc r) :=
  (keep1 (W2 m ρ c) r h2).trans (W2_of m ρ c r h0 h1)
theorem W4_of (r : Ref sig .tc) (h0 : r ∉ hostOps0_W) (h1 : ∀ w, Pipeline.arrRef spec0 w ≠ r) (h2 : r ∉ hostOps1_W)
    (h3 : ∀ w, Pipeline.arrRef spec1 w ≠ r) : W4 m ρ c (Proc.devRef .tc r) = m ((c : Thread nD τ).loc r) :=
  (W4_of_ne m ρ c r h3).trans (W3_of m ρ c r h0 h1 h2)
theorem W5_of (r : Ref sig .tc) (h0 : r ∉ hostOps0_W) (h1 : ∀ w, Pipeline.arrRef spec0 w ≠ r) (h2 : r ∉ hostOps1_W)
    (h3 : ∀ w, Pipeline.arrRef spec1 w ≠ r) (h4 : r ∉ hostOps2_W) : W5 m ρ c (Proc.devRef .tc r) = m ((c : Thread nD τ).loc r) :=
  (keep2 (W4 m ρ c) r h4).trans (W4_of m ρ c r h0 h1 h2 h3)

/-! ### The first region's entry -/

theorem W1_v7 : W1 m ρ c (Proc.devRef .tc main_v7) = Chain.degInv (m ((c : Thread nD τ).loc main_arg2)) :=
  H0_v7 (W0 m ρ c)
theorem W1_v20 : W1 m ρ c (Proc.devRef .tc main_v20) = Chain.hn (m ((c : Thread nD τ).loc main_arg0)) (m ((c : Thread nD τ).loc main_arg1)) (m ((c : Thread nD τ).loc main_arg2)) :=
  H0_v20 (W0 m ρ c)
theorem W1_v21 : row2 (W1 m ρ c (Proc.devRef .tc main_v21)) = row (m ((c : Thread nD τ).loc main_arg4)) :=
  H0_v21 (W0 m ρ c)
theorem W1_v22 : row2 (W1 m ρ c (Proc.devRef .tc main_v22)) = row (m ((c : Thread nD τ).loc main_arg6)) :=
  H0_v22 (W0 m ρ c)

/-! ### The first region's exit: its output array is the first layer -/

theorem W2_v23 : W2 m ρ c (Proc.devRef .tc main_v23) = (Chain.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W2_arr m ρ c 6).trans ((Region0.arr_eq (V1 m ρ) c).trans ?_)
  exact layerA_congr (W1_of m ρ c main_arg0 (by decide)) (W1_v20 m ρ c) (W1_of m ρ c main_arg3 (by decide))
    (W1_of m ρ c main_arg5 (by decide)) (W1_v21 m ρ c) (W1_v22 m ρ c)
/-- The reciprocal of the clamped in-degree is no array of the region: kept. -/
theorem W2_v7 : W2 m ρ c (Proc.devRef .tc main_v7) = Chain.degInv (m ((c : Thread nD τ).loc main_arg2)) :=
  (W2_of_ne m ρ c main_v7 (by decide)).trans (W1_v7 m ρ c)

/-! ### The second region's entry -/

theorem W3_v23 : W3 m ρ c (Proc.devRef .tc main_v23) = (Chain.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (keep1 (W2 m ρ c) main_v23 (by decide)).trans (W2_v23 m ρ c)
theorem W3_v7 : W3 m ρ c (Proc.devRef .tc main_v7) = Chain.degInv (m ((c : Thread nD τ).loc main_arg2)) :=
  (keep1 (W2 m ρ c) main_v7 (by decide)).trans (W2_v7 m ρ c)
theorem W3_v36 : W3 m ρ c (Proc.devRef .tc main_v36) = Chain.hn (Chain.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) :=
  (H1_v36 (W2 m ρ c)).trans (hn_congr (W2_v23 m ρ c) (W2_of m ρ c main_arg1 (by decide) (by decide))
    (W2_of m ρ c main_arg2 (by decide) (by decide)) (W2_v7 m ρ c))
theorem W3_v37 : row2 (W3 m ρ c (Proc.devRef .tc main_v37)) = row (m ((c : Thread nD τ).loc main_arg8)) :=
  (H1_v37 (W2 m ρ c)).trans (congrArg row (W2_of m ρ c main_arg8 (by decide) (by decide)))
theorem W3_v38 : row2 (W3 m ρ c (Proc.devRef .tc main_v38)) = row (m ((c : Thread nD τ).loc main_arg10)) :=
  (H1_v38 (W2 m ρ c)).trans (congrArg row (W2_of m ρ c main_arg10 (by decide) (by decide)))

/-! ### The second region's exit: its output array is the second layer -/

theorem W4_v39 : W4 m ρ c (Proc.devRef .tc main_v39) = (Chain.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W4_arr m ρ c 6).trans ((Region1.arr_eq (V3 m ρ) c).trans ?_)
  exact layerA_congr (W3_v23 m ρ c) (W3_v36 m ρ c) (W3_of m ρ c main_arg7 (by decide) (by decide) (by decide))
    (W3_of m ρ c main_arg9 (by decide) (by decide) (by decide)) (W3_v37 m ρ c) (W3_v38 m ρ c)
theorem W4_v7 : W4 m ρ c (Proc.devRef .tc main_v7) = Chain.degInv (m ((c : Thread nD τ).loc main_arg2)) :=
  (W4_of_ne m ρ c main_v7 (by decide)).trans (W3_v7 m ρ c)

/-! ### The third region's entry -/

theorem W5_v39 : W5 m ρ c (Proc.devRef .tc main_v39) = (Chain.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (keep2 (W4 m ρ c) main_v39 (by decide)).trans (W4_v39 m ρ c)
theorem W5_v52 : W5 m ρ c (Proc.devRef .tc main_v52) = Chain.hn (Chain.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg1)) (m ((c : Thread nD τ).loc main_arg2)) :=
  (H2_v52 (W4 m ρ c)).trans (hn_congr (W4_v39 m ρ c) (W4_of m ρ c main_arg1 (by decide) (by decide) (by decide) (by decide))
    (W4_of m ρ c main_arg2 (by decide) (by decide) (by decide) (by decide)) (W4_v7 m ρ c))
theorem W5_v53 : row2 (W5 m ρ c (Proc.devRef .tc main_v53)) = row (m ((c : Thread nD τ).loc main_arg12)) :=
  (H2_v53 (W4 m ρ c)).trans (congrArg row (W4_of m ρ c main_arg12 (by decide) (by decide) (by decide) (by decide)))
theorem W5_v54 : row2 (W5 m ρ c (Proc.devRef .tc main_v54)) = row (m ((c : Thread nD τ).loc main_arg14)) :=
  (H2_v54 (W4 m ρ c)).trans (congrArg row (W4_of m ρ c main_arg14 (by decide) (by decide) (by decide) (by decide)))

end Walk

/-- The result's buffer at the last segment boundary holds the three-layer function of the launch memory's
    argument arrays. -/
theorem W6_out (c : Dev nD) :
    W6 m ρ c (Proc.devRef .tc main_v55)
      = Chain.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W6_arr m ρ c 6).trans ((Region2.arr_eq (V5 m ρ) c).trans ?_)
  exact layerL_congr (W5_v39 m ρ c) (W5_v52 m ρ c)
    (W5_of m ρ c main_arg11 (by decide) (by decide) (by decide) (by decide) (by decide))
    (W5_of m ρ c main_arg13 (by decide) (by decide) (by decide) (by decide) (by decide)) (W5_v53 m ρ c) (W5_v54 m ρ c)

end Cert.KernelIdeal.Fold

end
-- ==== Proof.ChainR.lean ====
/-
  The reference program's value as ONE function of its fifteen arguments: the same three layers in the reference's
  order of the summands (Spec), the neighbour mean formed as the sum DIVIDED by the clamped in-degree `max(deg, 1)`,
  recomputed in every layer from the same destinations.
-/
import proofs.«149585_j68143951118848_1_alg».proof.Proof.Gen.ReferenceIdeal
import proofs.«149585_j68143951118848_1_alg».proof.Proof.Spec

noncomputable section

namespace Cert.ReferenceIdeal.Chain

open Idealize.ShloMosaic Cert.ReferenceIdeal Cert.ReferenceIdeal.Gen Cert.Sage

abbrev FArr (s : Shape) : Type := FVec Ideal s .f32
abbrev IArr (s : Shape) : Type := IVec s 32

/-- An array of ones over the nodes. -/
def ones : FArr S100000 := broadcastInDim S100000 ![] bcast_S_S100000 (constant (F := Ideal) S_ .f32 0x3F800000#32)

/-- The in-degree of every node: ones summed by destination. -/
def deg (dst : IArr S1600000) : FArr S100000 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The in-degree clamped below by one. -/
def degc (dst : IArr S1600000) : FArr S100000 := maximumf (F := Ideal) (deg dst) ones

/-- The source indices, negative ones wrapped by the node count, as a column. -/
def srcCol (src : IArr S1600000) : IArr S1600000x1 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The rows of `h` gathered by source and summed by destination. -/
def agg (h : FArr S100000x128) (src dst : IArr S1600000) : FArr S100000x128 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h (srcCol src))

/-- A per-node number repeated along the node's row. -/
def bc (v : FArr S100000) : FArr S100000x128 :=
  broadcastInDim S100000x128 ![0, 1] bcast_S100000x1_S100000x128_0_1 (broadcastInDim S100000x1 ![0] bcast_S100000_S100000x1_0 v)

/-- The neighbour mean, as the reference forms it: the sum divided by the clamped in-degree. -/
def hn (h : FArr S100000x128) (src dst : IArr S1600000) : FArr S100000x128 :=
  Host.divf (F := Ideal) (agg h src dst) (bc (degc dst))

variable (x0 : FArr S100000x128) (x1 x2 : IArr S1600000) (x3 : FArr S128x128) (x4 : FArr S128) (x5 : FArr S128x128) (x6 : FArr S128)
  (x7 : FArr S128x128) (x8 : FArr S128) (x9 : FArr S128x128) (x10 : FArr S128) (x11 : FArr S128x40) (x12 : FArr S40)
  (x13 : FArr S128x40) (x14 : FArr S40)

/-- The first layer's rows. -/
def h1 : FArr S100000x128 := layerARef (N := 100000) (K := 128) (D := 128) x0 (hn x0 x1 x2) x3 x5 (row x4) (row x6)
/-- The second layer's rows. -/
def h2 : FArr S100000x128 :=
  layerARef (N := 100000) (K := 128) (D := 128) (h1 x0 x1 x2 x3 x4 x5 x6) (hn (h1 x0 x1 x2 x3 x4 x5 x6) x1 x2) x7 x9 (row x8) (row x10)
/-- The program's result: the third, linear layer. -/
def out : FArr S100000x40 :=
  layerLRef (N := 100000) (K := 128) (D := 40) (h2 x0 x1 x2 x3 x4 x5 x6 x7 x8 x9 x10)
    (hn (h2 x0 x1 x2 x3 x4 x5 x6 x7 x8 x9 x10) x1 x2) x11 x13 (row x12) (row x14)

end Cert.ReferenceIdeal.Chain

end
-- ==== Proof.RefValue.lean ====
/-
  The reference program's result, stage by stage, is the three-layer function of its arguments in the reference's own
  arrangement (ChainR): each layer's pre-activation read at an index is the two row-by-column sums and the two biases
  in the reference's order, the clamp and the row normalisation are Spec's `act`, and the neighbour mean between the
  layers is the host's own gather, sum and quotient, left as it is.

  The first layer is read for ARBITRARY node features. The second layer is the same operations applied to the first
  layer's rows with the next weights, so its value is the first layer's theorem at those arguments. The last layer is
  linear: its pre-activation itself.
-/
import proofs.«149585_j68143951118848_1_alg».proof.Proof.Gen.ReferenceIdeal.Read
import proofs.«149585_j68143951118848_1_alg».proof.Proof.ChainR
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read Cert.Sage
open Cert.ReferenceIdeal.Chain (FArr IArr)

variable (x0 : FArr S100000x128) (x1 x2 : IArr S1600000) (x3 : FArr S128x128) (x4 : FArr S128) (x5 : FArr S128x128) (x6 : FArr S128)
  (x7 : FArr S128x128) (x8 : FArr S128) (x9 : FArr S128x128) (x10 : FArr S128) (x11 : FArr S128x40) (x12 : FArr S40)
  (x13 : FArr S128x40) (x14 : FArr S40)

/-! ## The neighbour mean -/

/-- The neighbour mean of the first layer is the host's gather, segment sum and quotient by the clamped in-degree,
    applied to the features: the same operations in the same order, whatever the features are. -/
theorem hn1 (h : FArr S100000x128) : val_main_v18 (F := Ideal) h x1 x2 = Chain.hn h x1 x2 := rfl

/-! ## The index functions of the first layer's operations, at an index given by its row and column -/

/-- The left operand of the self product is read along the row. -/
theorem lidx_row (r : Fin 100000) (j k : Fin 128) : lidx_main_v19 (ix2 r j) k = ix2 r k :=
  funext fun a => match a with | ⟨0, _⟩ => rfl | ⟨1, _⟩ => rfl
/-- The right operand of the self product is read down the column. -/
theorem ridx_col (r : Fin 100000) (j k : Fin 128) : ridx_main_v19 (ix2 r j) k = ix2 k j :=
  funext fun a => match a with | ⟨0, _⟩ => rfl | ⟨1, _⟩ => rfl
/-- The left operand of the neighbour product is read along the row. -/
theorem lidx_row' (r : Fin 100000) (j k : Fin 128) : lidx_main_v23 (ix2 r j) k = ix2 r k :=
  funext fun a => match a with | ⟨0, _⟩ => rfl | ⟨1, _⟩ => rfl
/-- The right operand of the neighbour product is read down the column. -/
theorem ridx_col' (r : Fin 100000) (j k : Fin 128) : ridx_main_v23 (ix2 r j) k = ix2 k j :=
  funext fun a => match a with | ⟨0, _⟩ => rfl | ⟨1, _⟩ => rfl
/-- The first bias, broadcast to a row and then to every row, is read at the column. -/
theorem idx_bias (r : Fin 100000) (j : Fin 128) : idx_main_v20 (idx_main_v21 (ix2 r j)) = ix1 j :=
  funext fun a => match a with | ⟨0, _⟩ => rfl
/-- The second bias, broadcast the same way, is read at the column. -/
theorem idx_bias' (r : Fin 100000) (j : Fin 128) : idx_main_v25 (idx_main_v26 (ix2 r j)) = ix1 j :=
  funext fun a => match a with | ⟨0, _⟩ => rfl
/-- The row's sum of squares, kept as a column and broadcast back along the row, runs over the row's entries. -/
theorem idx_norm (r : Fin 100000) (j k : Fin 128) :
    idx_main_call1_v1 (idx_main_call1_v2 (idx_main_v32 (ix2 r j))) k = ix2 r k :=
  funext fun a => match a with | ⟨0, _⟩ => rfl | ⟨1, _⟩ => rfl

/-! ## The layer's mathematics spelt on the arrays' entries -/

/-- The reference-order pre-activation of a layer, spelt on the arrays' entries: the row-by-column sum with the
    features, the first bias, the row-by-column sum with the neighbour mean, the second bias. -/
theorem preRef_at (h g : FArr S100000x128) (ws wn : FArr S128x128) (bs bn : FArr S128) (r : Fin 100000) (j : Fin 128) :
    (∑ k : Fin 128, h (ix2 r k) * ws (ix2 k j)) + bs (ix1 j) + (∑ k : Fin 128, g (ix2 r k) * wn (ix2 k j)) + bn (ix1 j)
      = preRef (c2 h) (c2 g) (c2 ws) (c2 wn) (row bs) (row bn) r j := by
  unfold preRef c2 row
  rfl

/-- A normalised layer read at an index: the pre-activation clamped at zero, over the larger of the Euclidean norm
    of its clamped row and the fixed positive word. -/
theorem layerARef_at (h g : FArr S100000x128) (ws wn : FArr S128x128) (bs bn : Fin 128 → EReal) (r : Fin 100000) (j : Fin 128) :
    Ideal.div (max (preRef (c2 h) (c2 g) (c2 ws) (c2 wn) bs bn r j) 0)
        (max (Ideal.sqrt (∑ k : Fin 128, max (preRef (c2 h) (c2 g) (c2 ws) (c2 wn) bs bn r k) 0
          * max (preRef (c2 h) (c2 g) (c2 ws) (c2 wn) bs bn r k) 0)) epsW)
      = layerARef (N := 100000) (K := 128) (D := 128) h g ws wn bs bn (ix2 r j) := by
  unfold layerARef u2 act
  rfl

/-! ## The first layer, for any features -/

/-- The first layer's pre-activation at row r, column j: the two row-by-column sums and the two biases, added in the
    reference's order. The neighbour mean enters as one function of the features, never opened. -/
theorem pre1 (r : Fin 100000) (j : Fin 128) :
    val_main_v27 (F := Ideal) x0 x1 x2 x3 x4 x5 x6 (ix2 r j)
      = preRef (c2 x0) (c2 (Chain.hn x0 x1 x2)) (c2 x3) (c2 x5) (row x4) (row x6) r j := by
  rw [val_main_v27_apply, val_main_v24_apply, val_main_v22_apply, val_main_v19_apply, val_main_v21_apply,
    val_main_v20_apply, val_main_v23_apply, val_main_v26_apply, val_main_v25_apply, hn1]
  generalize Chain.hn x0 x1 x2 = g
  simp only [lidx_row, ridx_col, lidx_row', ridx_col', idx_bias, idx_bias', Ideal.addf_def]
  exact preRef_at x0 g x3 x5 x4 x6 r j

/-- The first layer's rows: the clamp at zero and the row normalisation of the reference-order pre-activation. The
    zero the clamp compares with and the zero the sum of squares starts from are the zero word; the word the norm is
    clamped at is the same word on both sides. -/
theorem layer1 : val_main_v33 (F := Ideal) x0 x1 x2 x3 x4 x5 x6
    = layerARef (N := 100000) (K := 128) (D := 128) x0 (Chain.hn x0 x1 x2) x3 x5 (row x4) (row x6) := by
  funext i
  obtain ⟨r, j, rfl⟩ : ∃ (r : Fin 100000) (j : Fin 128), i = ix2 r j := ⟨i 0, i 1, eq_ix2 i⟩
  rw [val_main_v33_apply, val_main_v32_apply, val_main_v31_apply, val_main_v30_apply, val_main_cst_4_apply,
    val_main_v29_apply, val_main_call1_v2_apply, val_main_call1_v1_apply, val_main_call1_cst_apply]
  simp only [idx_norm, val_main_call1_v0_apply, val_main_v28_apply, val_main_call0_v0_apply,
    val_main_call0_cst_apply, pre1]
  generalize Chain.hn x0 x1 x2 = g
  simp only [Ideal.hostDivf_def, Ideal.maximumf_def, Ideal.hostUnary_sqrt_def, Ideal.mulf_def, Ideal.ofBits_def,
    Ideal.ofBits_zero_f32, zero_add]
  exact layerARef_at x0 g x3 x5 (row x4) (row x6) r j

/-- The first layer's rows are the chain's. -/
theorem val_h1 : val_main_v33 (F := Ideal) x0 x1 x2 x3 x4 x5 x6 = Chain.h1 x0 x1 x2 x3 x4 x5 x6 :=
  layer1 x0 x1 x2 x3 x4 x5 x6

/-! ## The second layer -/

/-- The second layer is the first layer's operations, one for one, applied to the first layer's rows, the same
    sources and destinations, and the second layer's weights and biases. -/
theorem layer2_as_layer1 : val_main_v67 (F := Ideal) x0 x1 x2 x3 x4 x5 x6 x7 x8 x9 x10
    = val_main_v33 (F := Ideal) (val_main_v33 (F := Ideal) x0 x1 x2 x3 x4 x5 x6) x1 x2 x7 x8 x9 x10 := rfl

/-- The second layer's rows are the chain's. -/
theorem val_h2 : val_main_v67 (F := Ideal) x0 x1 x2 x3 x4 x5 x6 x7 x8 x9 x10 = Chain.h2 x0 x1 x2 x3 x4 x5 x6 x7 x8 x9 x10 := by
  rw [layer2_as_layer1, layer1 (val_main_v33 (F := Ideal) x0 x1 x2 x3 x4 x5 x6) x1 x2 x7 x8 x9 x10, val_h1]
  rfl

/-! ## The last, linear layer -/

/-- The neighbour mean of the last layer is the same host operations applied to the second layer's rows. -/
theorem hn3 : val_main_v86 (F := Ideal) x0 x1 x2 x3 x4 x5 x6 x7 x8 x9 x10
    = Chain.hn (val_main_v67 (F := Ideal) x0 x1 x2 x3 x4 x5 x6 x7 x8 x9 x10) x1 x2 := rfl

/-- The left operand of the last layer's self product is read along the row. -/
theorem lidx3 (r : Fin 100000) (j : Fin 40) (k : Fin 128) : lidx_main_v87 (ix2 r j) k = ix2 r k :=
  funext fun a => match a with | ⟨0, _⟩ => rfl | ⟨1, _⟩ => rfl
/-- The right operand of the last layer's self product is read down the column. -/
theorem ridx3 (r : Fin 100000) (j : Fin 40) (k : Fin 128) : ridx_main_v87 (ix2 r j) k = ix2 k j :=
  funext fun a => match a with | ⟨0, _⟩ => rfl | ⟨1, _⟩ => rfl
/-- The left operand of the last layer's neighbour product is read along the row. -/
theorem lidx3' (r : Fin 100000) (j : Fin 40) (k : Fin 128) : lidx_main_v91 (ix2 r j) k = ix2 r k :=
  funext fun a => match a with | ⟨0, _⟩ => rfl | ⟨1, _⟩ => rfl
/-- The right operand of the last layer's neighbour product is read down the column. -/
theorem ridx3' (r : Fin 100000) (j : Fin 40) (k : Fin 128) : ridx_main_v91 (ix2 r j) k = ix2 k j :=
  funext fun a => match a with | ⟨0, _⟩ => rfl | ⟨1, _⟩ => rfl
/-- The last layer's first bias, broadcast to a row and then to every row, is read at the column. -/
theorem idx_bias3 (r : Fin 100000) (j : Fin 40) : idx_main_v88 (idx_main_v89 (ix2 r j)) = ix1 j :=
  funext fun a => match a with | ⟨0, _⟩ => rfl
/-- The last layer's second bias, broadcast the same way, is read at the column. -/
theorem idx_bias3' (r : Fin 100000) (j : Fin 40) : idx_main_v93 (idx_main_v94 (ix2 r j)) = ix1 j :=
  funext fun a => match a with | ⟨0, _⟩ => rfl

/-- The linear layer read at an index: the reference-order pre-activation spelt on the arrays' entries. -/
theorem layerLRef_at (h g : FArr S100000x128) (ws wn : FArr S128x40) (bs bn : FArr S40) (r : Fin 100000) (j : Fin 40) :
    (∑ k : Fin 128, h (ix2 r k) * ws (ix2 k j)) + bs (ix1 j) + (∑ k : Fin 128, g (ix2 r k) * wn (ix2 k j)) + bn (ix1 j)
      = layerLRef (N := 100000) (K := 128) (D := 40) h g ws wn (row bs) (row bn) (ix2 r j) := by
  unfold layerLRef u2 preRef c2 row
  rfl

/-- The last stage is the linear layer of the second layer's rows and their neighbour mean: the two row-by-column
    sums and the two biases in the reference's order, nothing after. The second layer's rows and their neighbour
    mean enter as two arrays, never opened. -/
theorem layer3 : val_main_v95 (F := Ideal) x0 x1 x2 x3 x4 x5 x6 x7 x8 x9 x10 x11 x12 x13 x14
    = layerLRef (N := 100000) (K := 128) (D := 40) (val_main_v67 (F := Ideal) x0 x1 x2 x3 x4 x5 x6 x7 x8 x9 x10)
        (Chain.hn (val_main_v67 (F := Ideal) x0 x1 x2 x3 x4 x5 x6 x7 x8 x9 x10) x1 x2) x11 x13 (row x12) (row x14) := by
  funext i
  obtain ⟨r, j, rfl⟩ : ∃ (r : Fin 100000) (j : Fin 40), i = ix2 r j := ⟨i 0, i 1, eq_ix2 i⟩
  rw [val_main_v95_apply, val_main_v92_apply, val_main_v90_apply, val_main_v87_apply, val_main_v89_apply,
    val_main_v88_apply, val_main_v91_apply, val_main_v94_apply, val_main_v93_apply, hn3]
  generalize val_main_v67 (F := Ideal) x0 x1 x2 x3 x4 x5 x6 x7 x8 x9 x10 = h2
  generalize Chain.hn h2 x1 x2 = g
  simp only [lidx3, ridx3, lidx3', ridx3', idx_bias3, idx_bias3', Ideal.addf_def]
  exact layerLRef_at h2 g x11 x13 x12 x14 r j

/-! ## The result -/

/-- The reference's last stage is the three-layer function of its arguments. -/
theorem val_out : val_main_v95 (F := Ideal) x0 x1 x2 x3 x4 x5 x6 x7 x8 x9 x10 x11 x12 x13 x14 = Chain.out x0 x1 x2 x3 x4 x5 x6 x7 x8 x9 x10 x11 x12 x13 x14 := by
  rw [layer3, val_h2]
  rfl

end Cert.ReferenceIdeal.RefValue

end
-- ==== Proof.Bridge.lean ====
/-
  The kernel program's three-layer function of the arguments IS the reference's.

  Two laws, both true on all of the extended reals, infinities included, so the inputs' finiteness is never used:
   * the order of the four summands of a layer's pre-activation does not matter (Spec: `layerARef_eq`, `layerLRef_eq`);
   * the neighbour mean: the kernel program multiplies the segment sum `a` by the reciprocal `1 / d` of the clamped
     in-degree `d = max(deg, 1)`, the reference divides `a / d`. Since `d ≥ 1 > 0` is never zero, `a / d = a · d⁻¹` and
     `1 / d = 1 · d⁻¹ = d⁻¹` (Spec: `div_eq_mul_one_div`), whatever `a` and `deg` are.
  The gather by source, the sum by destination and the degree count are the same host operations in both programs:
  they are carried as they are, never opened.
-/
import proofs.«149585_j68143951118848_1_alg».proof.Proof.ChainK
import proofs.«149585_j68143951118848_1_alg».proof.Proof.ChainR
import Idealize.ShloMosaic.Lib.Pipeline.Value
import Idealize.ShloMosaic.PureOps.Ideal.Laws

noncomputable section

namespace Cert.Bridge

open Idealize.ShloMosaic Idealize.ShloMosaic.ValueIdx Cert.Sage
open Cert.KernelIdeal (S100000x128 S1600000 S128x128 S128 S128x40 S40 S100000 S100000x1 S100000x40)
open Cert.KernelIdeal.Chain (FArr IArr)

/-- The word of the float one denotes the number one. -/
theorem one_word : Ideal.ofBits .f32 0x3F800000#32 = (1 : EReal) := by
  simp [Ideal.ofBits, Ideal.ieee]
  rw [← EReal.coe_mul]
  norm_num

/-! ## The shared host operations are the same functions in both programs -/

theorem scatter1_eq : Cert.ReferenceIdeal.scatter_S100000_S1600000x1_S1600000_n_0_0_1
    = Cert.KernelIdeal.scatter_S100000_S1600000x1_S1600000_n_0_0_1 := rfl
theorem scatter2_eq : Cert.ReferenceIdeal.scatter_S100000x128_S1600000x1_S1600000x128_1_0_0_1
    = Cert.KernelIdeal.scatter_S100000x128_S1600000x1_S1600000x128_1_0_0_1 := rfl
theorem gather_eq : Cert.ReferenceIdeal.gather_S100000x128_S1600000x1_S1600000x128_1_0_n_n_0_1_1128
    = Cert.KernelIdeal.gather_S100000x128_S1600000x1_S1600000x128_1_0_n_n_0_1_1128 := rfl

theorem ones_eq : Cert.ReferenceIdeal.Chain.ones = Cert.KernelIdeal.Chain.ones := by
  unfold Cert.ReferenceIdeal.Chain.ones Cert.KernelIdeal.Chain.ones
  with_reducible rfl
theorem srcCol_eq (src : IArr S1600000) : Cert.ReferenceIdeal.Chain.srcCol src = Cert.KernelIdeal.Chain.srcCol src := by
  unfold Cert.ReferenceIdeal.Chain.srcCol Cert.KernelIdeal.Chain.srcCol
  with_reducible rfl
theorem deg_eq (dst : IArr S1600000) : Cert.ReferenceIdeal.Chain.deg dst = Cert.KernelIdeal.Chain.deg dst := by
  unfold Cert.ReferenceIdeal.Chain.deg Cert.KernelIdeal.Chain.deg
  rw [scatter1_eq]
theorem degc_eq (dst : IArr S1600000) : Cert.ReferenceIdeal.Chain.degc dst = Cert.KernelIdeal.Chain.degc dst := by
  unfold Cert.ReferenceIdeal.Chain.degc Cert.KernelIdeal.Chain.degc
  rw [deg_eq, ones_eq]
theorem agg_eq (h : FArr S100000x128) (src dst : IArr S1600000) :
    Cert.ReferenceIdeal.Chain.agg h src dst = Cert.KernelIdeal.Chain.agg h src dst := by
  unfold Cert.ReferenceIdeal.Chain.agg Cert.KernelIdeal.Chain.agg
  rw [scatter2_eq, gather_eq, srcCol_eq]
theorem bc_eq (v : FArr S100000) : Cert.ReferenceIdeal.Chain.bc v = Cert.KernelIdeal.Chain.bc v := by
  unfold Cert.ReferenceIdeal.Chain.bc Cert.KernelIdeal.Chain.bc
  with_reducible rfl

/-- A row index's place in the one-column array of per-node numbers. -/
abbrev col (i : S100000x128.Idx) : S100000x1.Idx := fun a => match a with
  | ⟨0, _⟩ => ⟨(i 0).val, (i 0).isLt⟩
  | ⟨1, _⟩ => ⟨0, Nat.one_pos⟩
/-- The node a one-column index belongs to. -/
abbrev nodeOfCol (j : S100000x1.Idx) : S100000.Idx := fun a => match a with
  | ⟨0, _⟩ => ⟨(j 0).val, (j 0).isLt⟩
/-- The node a row index belongs to. -/
abbrev node (i : S100000x128.Idx) : S100000.Idx := nodeOfCol (col i)
/-- The one index of a scalar. -/
abbrev unitIdx : Cert.KernelIdeal.S_.Idx := fun a => a.elim0

/-- A per-node number repeated along the node's row, read at an index: the node's number. -/
theorem bc_apply (v : FArr S100000) (i : S100000x128.Idx) : Cert.KernelIdeal.Chain.bc v i = v (node i) := by
  unfold Cert.KernelIdeal.Chain.bc
  generalize hy : broadcastInDim S100000x1 ![0] Cert.KernelIdeal.Gen.bcast_S100000_S100000x1_0 v = y
  refine (broadcastInDim_apply _ Cert.KernelIdeal.Gen.bcast_S100000x1_S100000x128_0_1 y i (col i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  rw [← hy]
  exact broadcastInDim_apply _ Cert.KernelIdeal.Gen.bcast_S100000_S100000x1_0 v (col i) (nodeOfCol (col i)) (fun a => match a with
    | ⟨0, _⟩ => by show ((col i) 0).val = if (100000 : Nat) = 1 then 0 else ((col i) 0).val; rw [if_neg (by decide)])

/-- Every entry of the array of ones is the word of one. -/
theorem ones_apply (j : S100000.Idx) : Cert.KernelIdeal.Chain.ones j = Ideal.ofBits .f32 0x3F800000#32 := by
  unfold Cert.KernelIdeal.Chain.ones
  generalize hy : constant (F := Ideal) Cert.KernelIdeal.S_ .f32 0x3F800000#32 = y
  refine (broadcastInDim_apply _ Cert.KernelIdeal.Gen.bcast_S_S100000 y j unitIdx (fun a => a.elim0)).trans ?_
  rw [← hy]
  rfl

/-! ## The neighbour mean -/

/-- The law on arrays, stated over variables: for any sum `A`, any degree array `d`, an array `one` all of whose
    entries are the word of one, and any re-indexing `B` of per-node numbers along rows, dividing `A` by the re-indexed
    `max(d, one)` is multiplying it by the re-indexed `one / max(d, one)`. -/
theorem mean_eq {s t : Shape} (A : FVec Ideal s .f32) (d one : FVec Ideal t .f32)
    (B : FVec Ideal t .f32 → FVec Ideal s .f32) (σ : s.Idx → t.Idx) (hB : ∀ v i, B v i = v (σ i))
    (hone : ∀ j, one j = Ideal.ofBits .f32 0x3F800000#32) :
    Host.divf (F := Ideal) A (B (maximumf (F := Ideal) d one))
      = mulf (F := Ideal) A (B (Host.divf (F := Ideal) one (maximumf (F := Ideal) d one))) := by
  funext i
  unfold Host.divf mulf
  rw [hB, hB]
  unfold maximumf
  simp only [Ideal.hostDivf_def, Ideal.mulf_def, Ideal.maximumf_def, hone]
  rw [div_eq_mul_one_div _ _ (max_pos_ne_zero _ _ one_word_pos), one_word]

/-- The sum times the reciprocal of the clamped in-degree is the sum divided by it: the clamped in-degree is at least
    one, so never zero. -/
theorem hn_eq (h : FArr S100000x128) (src dst : IArr S1600000) :
    Cert.ReferenceIdeal.Chain.hn h src dst = Cert.KernelIdeal.Chain.hn h src dst := by
  unfold Cert.ReferenceIdeal.Chain.hn Cert.KernelIdeal.Chain.hn Cert.KernelIdeal.Chain.degInv
  rw [agg_eq, bc_eq, degc_eq]
  unfold Cert.KernelIdeal.Chain.degc
  exact mean_eq _ _ _ _ node bc_apply ones_apply

/-! ## The three layers -/

variable (x0 : FArr S100000x128) (x1 x2 : IArr S1600000) (x3 : FArr S128x128) (x4 : FArr S128) (x5 : FArr S128x128) (x6 : FArr S128)
  (x7 : FArr S128x128) (x8 : FArr S128) (x9 : FArr S128x128) (x10 : FArr S128) (x11 : FArr S128x40) (x12 : FArr S40)
  (x13 : FArr S128x40) (x14 : FArr S40)

theorem h1_eq : Cert.ReferenceIdeal.Chain.h1 x0 x1 x2 x3 x4 x5 x6 = Cert.KernelIdeal.Chain.h1 x0 x1 x2 x3 x4 x5 x6 := by
  unfold Cert.ReferenceIdeal.Chain.h1 Cert.KernelIdeal.Chain.h1
  rw [hn_eq]
  exact layerARef_eq _ _ _ _ _ _

theorem h2_eq : Cert.ReferenceIdeal.Chain.h2 x0 x1 x2 x3 x4 x5 x6 x7 x8 x9 x10
    = Cert.KernelIdeal.Chain.h2 x0 x1 x2 x3 x4 x5 x6 x7 x8 x9 x10 := by
  unfold Cert.ReferenceIdeal.Chain.h2 Cert.KernelIdeal.Chain.h2
  rw [h1_eq, hn_eq]
  exact layerARef_eq _ _ _ _ _ _

/-- The reference's value and the kernel program's are one function of the fifteen arguments. -/
theorem out_eq : Cert.ReferenceIdeal.Chain.out x0 x1 x2 x3 x4 x5 x6 x7 x8 x9 x10 x11 x12 x13 x14
    = Cert.KernelIdeal.Chain.out x0 x1 x2 x3 x4 x5 x6 x7 x8 x9 x10 x11 x12 x13 x14 := by
  unfold Cert.ReferenceIdeal.Chain.out Cert.KernelIdeal.Chain.out
  rw [h2_eq, hn_eq]
  exact layerLRef_eq _ _ _ _ _ _

end Cert.Bridge

end
-- ==== Proof.lean ====
/-
  A three-layer GraphSAGE network over 100000 nodes and 1600000 edges: the Pallas program (three launches of one
  dense-layer kernel, 25 blocks of 4000 rows each, with the host's gather by source and sum by destination between
  them) against the plain jnp reference, equal as functions on the extended reals.

  Each layer is  out = act( h·Ws + hn·Wn + bs + bn ),  hn the mean of the in-neighbours' rows, act the clamp at zero
  followed by the division of every row by max(‖row‖₂, eps) (the last layer has no act). The two programs differ in
  two places only, and both differences vanish on the extended reals without any use of the inputs' finiteness:
   * the reference adds `bs` between the two matrix products, the kernel after both (addition is commutative and
     associative: Spec `preRef_eq_pre`);
   * the reference divides the neighbour sum by the clamped in-degree max(deg, 1) in every layer, the Pallas program
     multiplies by its reciprocal, computed once (the clamped in-degree is at least one, so never zero, and then
     a / d = a · (1 / d): Spec `div_eq_mul_one_div`, Bridge `hn_eq`).
  The bf16 casts in front of the kernel's matrix products are the identity at this instance.

  The modules: Spec (a layer index by index, the two laws), ChainK / ChainR (each program's value as one function of
  the fifteen arguments), Region0 / Region1 / Region2 (each launch's output array is the layer of the arrays it reads:
  the 25 row blocks are restrictions of one whole-array function, since a matrix product and a row norm only mix
  entries of one row), KRun (the run with the result array named), Fold (the result read back through the run's segment
  boundaries to the launch memory), RefValue (the reference's stages read at an index), Bridge (the two values are one).
  The three frames are the generated ones; `preserves` has no entry to state.
-/
import proofs.«149585_j68143951118848_1_alg».proof.Defs
import proofs.«149585_j68143951118848_1_alg».proof.Proof.Gen.Kernel
import proofs.«149585_j68143951118848_1_alg».proof.Proof.Gen.Kernel.Skeleton
import proofs.«149585_j68143951118848_1_alg».proof.Proof.Gen.Kernel.Launch
import proofs.«149585_j68143951118848_1_alg».proof.Proof.Gen.Kernel.Points
import proofs.«149585_j68143951118848_1_alg».proof.Proof.Gen.Kernel.Frame
import proofs.«149585_j68143951118848_1_alg».proof.Proof.Gen.KernelIdeal
import proofs.«149585_j68143951118848_1_alg».proof.Proof.Gen.KernelIdeal.Skeleton
import proofs.«149585_j68143951118848_1_alg».proof.Proof.Gen.KernelIdeal.Launch
import proofs.«149585_j68143951118848_1_alg».proof.Proof.Gen.KernelIdeal.Points
import proofs.«149585_j68143951118848_1_alg».proof.Proof.Gen.KernelIdeal.Frame
import proofs.«149585_j68143951118848_1_alg».proof.Proof.Gen.ReferenceIdeal
import proofs.«149585_j68143951118848_1_alg».proof.Proof.Gen.ReferenceIdeal.Run
import proofs.«149585_j68143951118848_1_alg».proof.Proof.Gen.ReferenceIdeal.Read
import proofs.«149585_j68143951118848_1_alg».proof.Proof.Gen.Pre_finite_inputs
import proofs.«149585_j68143951118848_1_alg».proof.Proof.KRun
import proofs.«149585_j68143951118848_1_alg».proof.Proof.Fold
import proofs.«149585_j68143951118848_1_alg».proof.Proof.RefValue
import proofs.«149585_j68143951118848_1_alg».proof.Proof.Bridge
import Idealize.ShloMosaic.Adequacy
import Idealize.ShloMosaic.Init

noncomputable section

namespace Cert.Proof

open Idealize.ShloMosaic Idealize.SL.Sem

/-- The word-level program runs and leaves its arguments as launched: the generated frame. -/
theorem frame_kernel : Cert.frame_Kernel := fun m ρ _ => Cert.Kernel.Gen.frame m ρ

/-- So does the idealized program. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the three-layer function of the (agreeing) arguments in their result arrays. -/
theorem algebraic : Cert.algebraic_KernelIdeal_ReferenceIdeal := by
  intro m ρ m' ρ' _ hagree
  refine ⟨fun c => Cert.KernelIdeal.Chain.out
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelIdeal.Fold.W6_out m ρ c), (h c).2⟩)
      (Cert.KernelIdeal.KRun.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [Cert.ReferenceIdeal.Read.val_main_v95_eq, Cert.ReferenceIdeal.RefValue.val_out, Cert.Bridge.out_eq,
      e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
